-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x50 : Shape := ⟨2, ![4096, 50]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : FVec F S4096x128 .f32) (main_arg1 : FVec F S4096x50 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x50 .f32 := Host.absf main_arg1
  let main_cst_0 : FVec F S_ .f32 := constant S_ .f32 0x7F800000#32
  let main_v5 : FVec F S4096x50 .f32 := broadcastInDim S4096x50 ![] bcast_S_S4096x50 main_cst_0
  let main_v6 : IVec S4096x50 1 := cmpf .olt main_v4 main_v5
  let main_c_1 : IVec S_ 1 := constantI S_ 1 1#1
  let main_v7 : IVec S_ 1 := (fun x v => Host.reduce IntOp.andi x v reducesTo_S4096x50_S_d0_1 h_S_) main_v6 main_c_1
  let main_v8 : IVec S_ 1 := andi main_v3 main_v7
  main_v8
-- ==== Kernel.lean ====
abbrev S4096x128 : Shape := ⟨2, ![4096, 128]⟩
abbrev S4096x50 : Shape := ⟨2, ![4096, 50]⟩
abbrev S4096 : Shape := ⟨1, ![4096]⟩
abbrev S128x128 : Shape := ⟨2, ![128, 128]⟩
abbrev S128x50 : Shape := ⟨2, ![128, 50]⟩
abbrev S128 : Shape := ⟨1, ![128]⟩
abbrev S128x4096 : Shape := ⟨2, ![128, 4096]⟩
abbrev S128x1 : Shape := ⟨2, ![128, 1]⟩
abbrev S50x4096 : Shape := ⟨2, ![50, 4096]⟩
abbrev S1x4096 : Shape := ⟨2, ![1, 4096]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x50, .f32⟩
  | .hbm, ⟨2, _⟩ => ⟨S4096x128, .bf16⟩
  | .hbm, ⟨3, _⟩ => ⟨S4096x50, .bf16⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S4096x128, .bf16⟩
  | .local _ .vmem, ⟨3, _⟩ => ⟨S128x50, .bf16⟩
  | .local _ .vmem, ⟨4, _⟩ => ⟨S128x50, .bf16⟩
  | .local _ .vmem, ⟨5, _⟩ => ⟨S4096x50, .bf16⟩
  | .local _ .vmem, ⟨6, _⟩ => ⟨S128, .f32⟩
  | .local _ .vmem, ⟨7, _⟩ => ⟨S128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x50 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x50_S128x50_0_0 : ∀ a, (![0, 0] : Fin 2 → Nat) a + S128x50.size a ≤ S128x50.size a
  h_S128x50 : 0 < S128x50.numel
  shapeCasts_S128x50_S128x50 : S128x50.ShapeCasts S128x50
  inb_S4096x50_S4096x50_0_0 : ∀ a, (![0, 0] : Fin 2 → Nat) a + S4096x50.size a ≤ S4096x50.size a
  h_S4096x50 : 0 < S4096x50.numel
  shapeCasts_S4096x50_S4096x50 : S4096x50.ShapeCasts S4096x50
  transposes_S4096x128_p1_0_S128x4096 : S4096x128.Transposes [1, 0] S128x4096
  reduces_S128x4096_S128 : S128x4096.Reduces [1] S128
  shapeCasts_S128_S128x1 : S128.ShapeCasts S128x1
  broadcasts_S128x1_S128x4096 : S128x1.Broadcasts S128x4096
  transposes_S4096x50_p1_0_S50x4096 : S4096x50.Transposes [1, 0] S50x4096
  reduces_S128x50_S128 : S128x50.Reduces [1] S128
  reduces_S4096x50_S4096 : S4096x50.Reduces [1] S4096
  shapeCasts_S4096_S1x4096 : S4096.ShapeCasts S1x4096
  broadcasts_S1x4096_S128x4096 : S1x4096.Broadcasts S128x4096
  iota_S128x1_d0_w32 : S128x1.Iotas .tc 32 [0]
  iota_S1x4096_d1_w32 : S1x4096.Iotas .tc 32 [1]
  inb_S128_S128_0 : ∀ a, (![0] : Fin 1 → Nat) a + S128.size a ≤ S128.size a
  h_S128 : 0 < S128.numel
  reducesTo_S4096_S_d0 : S4096.ReducesTo [0] S_
  h_S_ : 0 < S_.numel
  dot_S128x128_S128x4096_S128x4096_1_0_0_1_n_n_wf : DotDims.WF S128x128 S128x4096 S128x4096 [1] [0] [0] [1] [] []
  dot_S128x50_S50x4096_S128x4096_1_0_0_1_n_n_wf : DotDims.WF S128x50 S50x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .bf16 = 32 ∨ (Rect.block (s := S4096x128) S128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x50.size a ≤ S4096x50.size a
  hwx0_2 : ∀ i : grid0.Coords, EltTy.bits .bf16 = 32 ∨ (Rect.block (s := S4096x50) S128x50.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x50.size a ≤ S4096x50.size a
  hwx0_3 : ∀ i : grid0.Coords, EltTy.bits .bf16 = 32 ∨ (Rect.block (s := S4096x50) S4096x50.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S4096.size a
  hwx0_4 : ∀ i : grid0.Coords, EltTy.bits .f32 = 32 ∨ (Rect.block (s := S4096) S128.size (cc0_transform_4 i) (hinb0_4 i)).WholeWords (EltTy.packing .f32)

variable [Facts₀]

def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S128x50_S50x4096_S128x4096_1_0_0_1_n_n : DotDims S128x50 S50x4096 S128x4096 where
  lhsContracting := [1]
  rhsContracting := [0]
  lhsNonContracting := [0]
  rhsNonContracting := [1]
  lhsBatch := []
  rhsBatch := []
  wf := dot_S128x50_S50x4096_S128x4096_1_0_0_1_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x50 : Shape := ⟨2, ![4096, 50]⟩
abbrev S50x4096 : Shape := ⟨2, ![50, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S128x4096 : Shape := ⟨2, ![128, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x50, .f32⟩
  | .hbm, ⟨2, _⟩ => ⟨S50x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S128x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  transposes_S4096x50_S50x4096_1_0 : S4096x50.Transposes [1, 0] S50x4096
  reducesTo_S4096x50_S4096_d1 : S4096x50.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  bcast_S_S4096x1 : S_.BroadcastsInDim S4096x1 (![] : Fin 0 → Fin S4096x1.rank)
  bcast_S_S4096 : S_.BroadcastsInDim S4096 (![] : Fin 0 → Fin S4096.rank)
  reducesTo_S4096_S_d0 : S4096.ReducesTo [0] S_
  dot_S4096x50_S50x4096_S4096x4096_1_0_0_1_n_n_wf : DotDims.WF S4096x50 S50x4096 S4096x4096 [1] [0] [0] [1] [] []
  dot_S4096x128_S128x4096_S4096x4096_1_0_0_1_n_n_wf : DotDims.WF S4096x128 S128x4096 S4096x4096 [1] [0] [0] [1] [] []

variable [Facts₀]

def dot_S4096x50_S50x4096_S4096x4096_1_0_0_1_n_n : DotDims S4096x50 S50x4096 S4096x4096 where
  lhsContracting := [1]
  rhsContracting := [0]
  lhsNonContracting := [0]
  rhsNonContracting := [1]
  lhsBatch := []
  rhsBatch := []
  wf := dot_S4096x50_S50x4096_S4096x4096_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.BBody.lean ====
/-
  The kernel body and the pipeline's proof data, for any float instance.

  The program converts the two argument arrays to a narrower format (two host operations), launches one
  pipeline of 32 points over five windows, and finishes with seven host operations on the pipeline's result.
  Windows 0 and 1 both read the converted feature array (a tile of 128 rows, and the whole array); windows 2 and
  3 both read the converted label array in the same way; window 4 writes a tile of 128 row values.

  At a point the body loads its four input blocks whole, computes one vector of 128 values from them and from
  the point's coordinate (the diagonal mask), and stores it over the whole output block. So after the body the
  output's staging buffer holds that vector (`outBlk`) and the inputs' hold what they held.
-/
import proofs.«115237_j50706383896918_1_alg».proof.Proof.Gen.Kernel.Launch
import proofs.«115237_j50706383896918_1_alg».proof.Proof.Gen.Kernel.Skeleton
import proofs.«115237_j50706383896918_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s unscoped buffers after the two conversions that precede the region. -/
abbrev V1 (c : Dev nD) : Valuation τ sig (Elt F) := StableHlo.after hostOps0 (fun b => m (c, b))

/-- The same, by reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole block -/

abbrev rF : Rect S128x128 := Rect.unit (s := S128x128) ![0, 0] S128x128.size inb_S128x128_S128x128_0_0
abbrev rFF : Rect S4096x128 := Rect.unit (s := S4096x128) ![0, 0] S4096x128.size inb_S4096x128_S4096x128_0_0
abbrev rL : Rect S128x50 := Rect.unit (s := S128x50) ![0, 0] S128x50.size inb_S128x50_S128x50_0_0
abbrev rLL : Rect S4096x50 := Rect.unit (s := S4096x50) ![0, 0] S4096x50.size inb_S4096x50_S4096x50_0_0
abbrev rO : Rect S128 := Rect.unit (s := S128) ![0] S128.size inb_S128_S128_0

/-- The 128 row values the body computes at grid coordinate `i` from its four input blocks. -/
def rowVals (i : grid0.Coords) (x0 : Vec F S128x128 .bf16) (x1 : Vec F S4096x128 .bf16) (x2 : Vec F S128x50 .bf16) (x3 : Vec F S4096x50 .bf16) : Vec F S128 .f32 :=
  k0_pay1 (k0_pay2 (View.ld x0 rF) (View.ld x1 rFF)) (k0_pay4 i (View.ld x2 rL) (View.ld x3 rLL)) (k0_pay5 i (View.ld x0 rF) (View.ld x1 rFF))

/-- The output window's staging buffer after the body: its one store, as a list of pieces. -/
def outBlk (i : grid0.Coords) (x0 : Vec F S128x128 .bf16) (x1 : Vec F S4096x128 .bf16) (x2 : Vec F S128x50 .bf16) (x3 : Vec F S4096x50 .bf16) : Vec F S128 .f32 :=
  View.canon [⟨rO, rowVals i x0 x1 x2 x3⟩]

/-- The one store covers the buffer. -/
theorem coverO (p0 : Vec F S128 .f32) (y : S128.Idx) :
    ∃ pc ∈ ([⟨rO, p0⟩] : List (View.Piece (Elt F) S128 .f32)), y ∈ pc.1.set :=
  View.cover_of_tiled [⟨rO, p0⟩] S128.size (by rfl) y

/-! ## The body's triple -/

set_option maxHeartbeats 1000000 in
/-- On whole staging memrefs, the inputs' at contents `xW` and the output's at anything, the body runs to the
    continuation holding the inputs' as they were and the output's at `outBlk` of the inputs'. -/
theorem sound_kernel (c : Dev nD) (E : Set ℕ) (i : grid0.Coords)
    (arg1 : Memref sig .tc .vmem S128x128 .bf16) (harg1 : arg1.IsWhole) (arg2 : Memref sig .tc .vmem S4096x128 .bf16) (harg2 : arg2.IsWhole)
    (arg3 : Memref sig .tc .vmem S128x50 .bf16) (harg3 : arg3.IsWhole) (arg4 : Memref sig .tc .vmem S4096x50 .bf16) (harg4 : arg4.IsWhole)
    (arg5 : Memref sig .tc .vmem S128 .f32) (harg5 : arg5.IsWhole)
    (x0 : Vec F S128x128 .bf16) (x1 : Vec F S4096x128 .bf16) (x2 : Vec F S128x50 .bf16) (x3 : Vec F S4096x50 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outBlk i x0 x1 x2 x3)) -∗ K ⟨⟩))
      ⊢ wp frame (wpE (defs₀ (F := F)) Variants.none c none) E (cc0__hmlc_kernel i arg1 harg1 arg2 harg2 arg3 harg3 arg4 harg4 arg5 harg5) K := by
  simp only [cc0__hmlc_kernel_eq_skeleton]; unfold cc0__hmlc_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

end Cert.Kernel.Fr

end
-- ==== Proof.BDat.lean ====
/-
  The pipeline's proof data and the body obligation, for any float instance.

  The arrays are the region-entry contents; after the body at a point each input's buffer holds its block and
  the output's the 128 row values of that point. The two windows on the feature array hold it at the two halves
  of the full share, and so do the two on the label array: nothing writes either array while the pipeline runs.
-/
import proofs.«115237_j50706383896918_1_alg».proof.Proof.BBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (grid0.coords t) (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- The shares: the halves for the four input windows, the full share for the output. -/
theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.BRun.lean ====
/-
  The launch: the whole program's run, for any float instance.

  The program is three items in a row: two conversions, the pipeline's region, seven closing operations. Between
  two items core `c` holds every unscoped buffer whole at a valuation: the launch contents, then those after the
  conversions (`V1`), then those with the pipeline's result array at what the pipeline wrote (`V2`), then those
  after the closing operations (`V3`). Entering the region, the converted feature array's full share is dealt in
  two halves to the two windows that read it, and likewise the label array's; leaving it the halves are put
  together again, both windows of a pair ending at the contents they began with.
-/
import proofs.«115237_j50706383896918_1_alg».proof.Proof.BDat
import Idealize.ShloMosaic.Lib.Pipeline.Regions

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the items -/

/-- Core `c`'s unscoped buffers at launch. -/
abbrev V0 (c : Dev nD) : Valuation τ sig (Elt F) := fun b => m (c, b)

/-- After the region: the result array at what the pipeline wrote, everything else as the region found it. -/
abbrev V2 (c : Dev nD) : Valuation τ sig (Elt F) :=
  Function.update (V1 m c) (Proc.devRef .tc main_v2) ((dats m 0 c).arrAt 4 cfg0.N)

/-- After the closing operations. -/
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The unscoped buffers and the pipeline's arrays, one by one -/

/-- The twelve unscoped buffers. -/
abbrev ubL : List (Ref sig .tc) :=
  [main_arg0, main_arg1, main_v0, main_v1, main_v2, main_cst, main_v3, main_cst_0, main_v4, main_v5, main_cst_1, main_v6]

theorem unscopedBufs_list (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_cst) ↦{fullShare} W main_cst)
          ∗ (((c : Thread nD τ).loc main_v3) ↦{fullShare} W main_v3) ∗ (((c : Thread nD τ).loc main_cst_0) ↦{fullShare} W main_cst_0)
          ∗ (((c : Thread nD τ).loc main_v4) ↦{fullShare} W main_v4) ∗ (((c : Thread nD τ).loc main_v5) ↦{fullShare} W main_v5)
          ∗ (((c : Thread nD τ).loc main_cst_1) ↦{fullShare} W main_cst_1) ∗ (((c : Thread nD τ).loc main_v6) ↦{fullShare} W main_v6)) := by
  unfold unscopedBufs; exact bigSep_eq_bigSepL_of_eq ubL (by decide) (by decide) _

/-- The pipeline's arrays at contents `G`, window by window: the two halves of the converted feature array, the two
    halves of the converted label array, the result array whole. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare.left} G 2) ∗ (((c : Thread nD τ).loc main_v1) ↦{fullShare.right} G 3)
          ∗ (((c : Thread nD τ).loc main_v2) ↦{fullShare} G 4)) := by
  unfold Dat.arrays
  rw [bigSep_W0]
  rw [(arr_whole0 0).set_eq_univ, (arr_whole0 2).set_eq_univ, (arr_whole0 4).set_eq_univ]
  rfl

/-! ## The items as segments -/

abbrev 𝒱₀ : Variants := Variants.none
/-- No core owes another anything: no level is assigned. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm

/-- What rides beside the buffers through every item: the generator register at some state and the core owing nothing. -/
abbrev R (c : Dev nD) : sProp 𝕄 :=
  iprop((∃ r, prngReg c r) ∗ ∃ W, owes (c : Thread nD τ) (0 : CellTallies nD τ sig Unit) W)

/-- The two conversions, over the unscoped buffers from the launch contents. -/
def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-- The seven closing operations, over the unscoped buffers as the region left them. -/
def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

/-- The valuation after the region, by reference: the result array at what the pipeline wrote, -/
theorem V2_v2 (c : Dev nD) : V2 m c (Proc.devRef .tc main_v2) = (dats m 0 c).arrAt 4 cfg0.N := by
  simp only [V2, Function.update_self]
/-- every other buffer as the region found it. -/
theorem V2_of (c : Dev nD) (r : Ref sig .tc) (h : r ≠ main_v2) : V2 m c (Proc.devRef .tc r) = V m c r := by
  simp only [V2, Function.update_of_ne (StableHlo.devRef_ne_of_ne h : (Proc.devRef .tc r : DevRef τ sig) ≠ Proc.devRef .tc main_v2)]

/-- An input window's array is never written: it ends at its entry contents. -/
theorem arrAt_in0 (c : Dev nD) (n : Nat) : (dats m 0 c).arrAt 0 n = V m c main_v0 := ((dats m 0 c).arrAt_in 0 rfl n).trans (A_eq m c 0)
theorem arrAt_in1 (c : Dev nD) (n : Nat) : (dats m 0 c).arrAt 1 n = V m c main_v0 := ((dats m 0 c).arrAt_in 1 rfl n).trans (A_eq m c 1)
theorem arrAt_in2 (c : Dev nD) (n : Nat) : (dats m 0 c).arrAt 2 n = V m c main_v1 := ((dats m 0 c).arrAt_in 2 rfl n).trans (A_eq m c 2)
theorem arrAt_in3 (c : Dev nD) (n : Nat) : (dats m 0 c).arrAt 3 n = V m c main_v1 := ((dats m 0 c).arrAt_in 3 rfl n).trans (A_eq m c 3)
theorem arrAt_out0 (c : Dev nD) : (dats m 0 c).arrAt 4 0 = V m c main_v2 := A_eq m c 4

set_option backward.isDefEq.respectTransparency.types false in
/-- The region: entered from the buffers at `V1`, left with them at `V2`. -/
def reg0 : RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(∃ r, prngReg c r)
  Y c := iprop(∃ r, prngReg c r)
  Z c := iprop((((c : Thread nD τ).loc main_arg0) ↦{fullShare} V m c main_arg0) ∗ (((c : Thread nD τ).loc main_arg1) ↦{fullShare} V m c main_arg1)
    ∗ (((c : Thread nD τ).loc main_cst) ↦{fullShare} V m c main_cst) ∗ (((c : Thread nD τ).loc main_v3) ↦{fullShare} V m c main_v3)
    ∗ (((c : Thread nD τ).loc main_cst_0) ↦{fullShare} V m c main_cst_0) ∗ (((c : Thread nD τ).loc main_v4) ↦{fullShare} V m c main_v4)
    ∗ (((c : Thread nD τ).loc main_v5) ↦{fullShare} V m c main_v5) ∗ (((c : Thread nD τ).loc main_cst_1) ↦{fullShare} V m c main_cst_1)
    ∗ (((c : Thread nD τ).loc main_v6) ↦{fullShare} V m c main_v6))
  hentry c := by
    rw [show StableHlo.held (c : Thread nD τ) (Pipeline.ucRefs τ sig) (V1 m c) = unscopedBufs c (V m c) from
        (Pipeline.unscopedBufs_held (Ix := Unit) (Name := ℕ) (U := UR sig nD τ) (Lvl := ℕ) c (V1 m c)).symm,
      unscopedBufs_list, arrays_list]
    rw [show (dats m 0 c).arrAt 0 0 = V m c main_v0 from arrAt_in0 m c 0, show (dats m 0 c).arrAt 1 0 = V m c main_v0 from arrAt_in1 m c 0,
      show (dats m 0 c).arrAt 2 0 = V m c main_v1 from arrAt_in2 m c 0, show (dats m 0 c).arrAt 3 0 = V m c main_v1 from arrAt_in3 m c 0,
      show (dats m 0 c).arrAt 4 0 = V m c main_v2 from arrAt_out0 m c]
    iintro ⟨⟨⟨Ha0, Ha1, Hv0, Hv1, Hv2, Hc, Hv3, Hc0, Hv4, Hv5, Hc1, Hv6⟩, ⟨Hp, HO⟩⟩, -, -⟩
    ihave Hs0 := (pointsTo_share (PosShare.mem_left_op_right fullShare)).1 $$ Hv0
    icases Hs0 with ⟨Hv0l, Hv0r⟩
    ihave Hs1 := (pointsTo_share (PosShare.mem_left_op_right fullShare)).1 $$ Hv1
    icases Hs1 with ⟨Hv1l, Hv1r⟩
    imodintro
    isplitl [Hv0l Hv0r Hv1l Hv1r Hv2]
    · isplitl [Hv0l]; · iexact Hv0l
      isplitl [Hv0r]; · iexact Hv0r
      isplitl [Hv1l]; · iexact Hv1l
      isplitl [Hv1r]; · iexact Hv1r
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Hc]; · iexact Hc
    isplitl [Hv3]; · iexact Hv3
    isplitl [Hc0]; · iexact Hc0
    isplitl [Hv4]; · iexact Hv4
    isplitl [Hv5]; · iexact Hv5
    isplitl [Hc1]; · iexact Hc1
    iexact Hv6
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (V2 m c) = unscopedBufs c (fun b => V2 m c (Proc.devRef .tc b)) from
        (Pipeline.unscopedBufs_held (Ix := Unit) (Name := ℕ) (U := UR sig nD τ) (Lvl := ℕ) c (V2 m c)).symm,
      unscopedBufs_list, arrays_list]
    rw [V2_v2, V2_of m c main_arg0 (by decide), V2_of m c main_arg1 (by decide), V2_of m c main_v0 (by decide), V2_of m c main_v1 (by decide),
      V2_of m c main_cst (by decide), V2_of m c main_v3 (by decide), V2_of m c main_cst_0 (by decide), V2_of m c main_v4 (by decide),
      V2_of m c main_v5 (by decide), V2_of m c main_cst_1 (by decide), V2_of m c main_v6 (by decide),
      arrAt_in0, arrAt_in1, arrAt_in2, arrAt_in3]
    iintro ⟨⟨Hv0l, Hv0r, Hv1l, Hv1r, Hv2⟩, HO, Hp, ⟨Ha0, Ha1, Hc, Hv3, Hc0, Hv4, Hv5, Hc1, Hv6⟩⟩
    ihave Hv0 := (pointsTo_share (PosShare.mem_left_op_right fullShare)).2 $$ [Hv0l Hv0r]
    · isplitl [Hv0l] <;> iassumption
    ihave Hv1 := (pointsTo_share (PosShare.mem_left_op_right fullShare)).2 $$ [Hv1l Hv1r]
    · isplitl [Hv1l] <;> iassumption
    imodintro
    isplitr [Hp HO]
    · isplitl [Ha0]; · iexact Ha0
      isplitl [Ha1]; · iexact Ha1
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      isplitl [Hv4]; · iexact Hv4
      isplitl [Hv5]; · iexact Hv5
      isplitl [Hc1]; · iexact Hc1
      iexact Hv6
    · isplitl [Hp]; · iexact Hp
      unfold Pipeline.Dat.owesAt Pipeline.owesWithin
      icases HO with ⟨%W, -, HO⟩; iexists W; iexact HO

/-- The program as the list of the three. -/
abbrev segs : List (Seg (pcfgs (F := F)) adm (dats m) () defs₀ 𝒱₀ L lv) := [.host (seg0 m), .region (reg0 m), .host (seg2 m)]

/-! ## What the host operations write -/

abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, Finset.singleton_subset_iff, List.mem_toFinset]; exact ⟨List.mem_map_of_mem (by decide), List.mem_map_of_mem (by decide)⟩)
abbrev hostOps1_W : List (Ref sig .tc) := [main_cst, main_v3, main_cst_0, main_v4, main_v5, main_cst_1, main_v6]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide), List.mem_map_of_mem (by decide)⟩)

/-- No item writes an argument: each reaches the end as launched. -/
theorem V3_arg0 (c : Dev nD) : V3 m c (Proc.devRef .tc main_arg0) = m ((c : Thread nD τ).loc main_arg0) :=
  (StableHlo.after_of_writes_sub hostOps1 _ hostOps1_writes (by decide)).trans <| (V2_of m c main_arg0 (by decide)).trans <|
    (StableHlo.after_of_writes_sub hostOps0 _ hostOps0_writes (by decide)).trans rfl
theorem V3_arg1 (c : Dev nD) : V3 m c (Proc.devRef .tc main_arg1) = m ((c : Thread nD τ).loc main_arg1) :=
  (StableHlo.after_of_writes_sub hostOps1 _ hostOps1_writes (by decide)).trans <| (V2_of m c main_arg1 (by decide)).trans <|
    (StableHlo.after_of_writes_sub hostOps0 _ hostOps0_writes (by decide)).trans rfl
/-- The conversions write neither argument. -/
theorem V_arg0 (c : Dev nD) : V m c main_arg0 = m ((c : Thread nD τ).loc main_arg0) :=
  (StableHlo.after_of_writes_sub hostOps0 _ hostOps0_writes (by decide)).trans rfl
theorem V_arg1 (c : Dev nD) : V m c main_arg1 = m ((c : Thread nD τ).loc main_arg1) :=
  (StableHlo.after_of_writes_sub hostOps0 _ hostOps0_writes (by decide)).trans rfl

/-! ## The run -/

set_option backward.isDefEq.respectTransparency.types false in
/-- At the compiled mesh, for any float values, from any memory with zero counters: every weakly fair execution of
    the program terminates, and every final state has every unscoped buffer at the last valuation. -/
theorem run_main : θ_run defs (onTc (τ := τ) (main (F := F))) ⟨m, fun _ => 0, ρ⟩ (fun r => ∀ c : Dev nD,
    ∀ b ∈ Pipeline.ucRefs τ sig, r.2.mem ((c : Thread nD τ).1, b) = V3 m c b) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V3 m c) ∗ ∃ r, prngReg c r))
    (hch := ⟨fun _ => .rfl, fun _ => .rfl, fun _ => .rfl, fun c => by
      show iprop(StableHlo.held (c : Thread nD τ) (Pipeline.ucRefs τ sig) (V3 m c) ∗ R c) ⊢ _
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V3 m c b)
    (hfin := fun c s' => by
      unfold StableHlo.held
      iintro ⟨⟨Hh, -⟩, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro; exact h
      · iexact HSI)
    (hQ := fun _ h => h)

/-- The run read at the result and the two arguments. -/
theorem run_vals : θ_run defs (onTc (τ := τ) (main (F := F))) ⟨m, fun _ => 0, ρ⟩ (fun r => ∀ c : Dev nD,
    r.2.mem ((c.tc : Thread nD τ).loc main_v6) = V3 m c (Proc.devRef .tc main_v6)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨h c (Proc.devRef .tc main_v6) (Finset.mem_filter.mpr ⟨StableHlo.devRef_mem_tcRefs main_v6, by decide⟩),
     (h c (Proc.devRef .tc main_arg0) (Finset.mem_filter.mpr ⟨StableHlo.devRef_mem_tcRefs main_arg0, by decide⟩)).trans (V3_arg0 m c),
     (h c (Proc.devRef .tc main_arg1) (Finset.mem_filter.mpr ⟨StableHlo.devRef_mem_tcRefs main_arg1, by decide⟩)).trans (V3_arg1 m c)⟩)
    (run_main m ρ)

/-- The frame: the program runs to the end, nothing faulting, and both argument arrays end as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => (h c).2) (run_vals m ρ)

end Cert.Kernel.Fr

end
-- ==== Proof.KBody.lean ====
/-
  The kernel body and the pipeline's proof data, for any float instance.

  The program converts the two argument arrays to a narrower format (two host operations), launches one
  pipeline of 32 points over five windows, and finishes with seven host operations on the pipeline's result.
  Windows 0 and 1 both read the converted feature array (a tile of 128 rows, and the whole array); windows 2 and
  3 both read the converted label array in the same way; window 4 writes a tile of 128 row values.

  At a point the body loads its four input blocks whole, computes one vector of 128 values from them and from
  the point's coordinate (the diagonal mask), and stores it over the whole output block. So after the body the
  output's staging buffer holds that vector (`outBlk`) and the inputs' hold what they held.
-/
import proofs.«115237_j50706383896918_1_alg».proof.Proof.Gen.KernelIdeal.Launch
import proofs.«115237_j50706383896918_1_alg».proof.Proof.Gen.KernelIdeal.Skeleton
import proofs.«115237_j50706383896918_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s unscoped buffers after the two conversions that precede the region. -/
abbrev V1 (c : Dev nD) : Valuation τ sig (Elt F) := StableHlo.after hostOps0 (fun b => m (c, b))

/-- The same, by reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole block -/

abbrev rF : Rect S128x128 := Rect.unit (s := S128x128) ![0, 0] S128x128.size inb_S128x128_S128x128_0_0
abbrev rFF : Rect S4096x128 := Rect.unit (s := S4096x128) ![0, 0] S4096x128.size inb_S4096x128_S4096x128_0_0
abbrev rL : Rect S128x50 := Rect.unit (s := S128x50) ![0, 0] S128x50.size inb_S128x50_S128x50_0_0
abbrev rLL : Rect S4096x50 := Rect.unit (s := S4096x50) ![0, 0] S4096x50.size inb_S4096x50_S4096x50_0_0
abbrev rO : Rect S128 := Rect.unit (s := S128) ![0] S128.size inb_S128_S128_0

/-- The 128 row values the body computes at grid coordinate `i` from its four input blocks. -/
def rowVals (i : grid0.Coords) (x0 : Vec F S128x128 .bf16) (x1 : Vec F S4096x128 .bf16) (x2 : Vec F S128x50 .bf16) (x3 : Vec F S4096x50 .bf16) : Vec F S128 .f32 :=
  k0_pay1 (k0_pay2 (View.ld x0 rF) (View.ld x1 rFF)) (k0_pay4 i (View.ld x2 rL) (View.ld x3 rLL)) (k0_pay5 i (View.ld x0 rF) (View.ld x1 rFF))

/-- The output window's staging buffer after the body: its one store, as a list of pieces. -/
def outBlk (i : grid0.Coords) (x0 : Vec F S128x128 .bf16) (x1 : Vec F S4096x128 .bf16) (x2 : Vec F S128x50 .bf16) (x3 : Vec F S4096x50 .bf16) : Vec F S128 .f32 :=
  View.canon [⟨rO, rowVals i x0 x1 x2 x3⟩]

/-- The one store covers the buffer. -/
theorem coverO (p0 : Vec F S128 .f32) (y : S128.Idx) :
    ∃ pc ∈ ([⟨rO, p0⟩] : List (View.Piece (Elt F) S128 .f32)), y ∈ pc.1.set :=
  View.cover_of_tiled [⟨rO, p0⟩] S128.size (by rfl) y

/-! ## The body's triple -/

set_option maxHeartbeats 1000000 in
/-- On whole staging memrefs, the inputs' at contents `xW` and the output's at anything, the body runs to the
    continuation holding the inputs' as they were and the output's at `outBlk` of the inputs'. -/
theorem sound_kernel (c : Dev nD) (E : Set ℕ) (i : grid0.Coords)
    (arg1 : Memref sig .tc .vmem S128x128 .bf16) (harg1 : arg1.IsWhole) (arg2 : Memref sig .tc .vmem S4096x128 .bf16) (harg2 : arg2.IsWhole)
    (arg3 : Memref sig .tc .vmem S128x50 .bf16) (harg3 : arg3.IsWhole) (arg4 : Memref sig .tc .vmem S4096x50 .bf16) (harg4 : arg4.IsWhole)
    (arg5 : Memref sig .tc .vmem S128 .f32) (harg5 : arg5.IsWhole)
    (x0 : Vec F S128x128 .bf16) (x1 : Vec F S4096x128 .bf16) (x2 : Vec F S128x50 .bf16) (x3 : Vec F S4096x50 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outBlk i x0 x1 x2 x3)) -∗ K ⟨⟩))
      ⊢ wp frame (wpE (defs₀ (F := F)) Variants.none c none) E (cc0__hmlc_kernel i arg1 harg1 arg2 harg2 arg3 harg3 arg4 harg4 arg5 harg5) K := by
  simp only [cc0__hmlc_kernel_eq_skeleton]; unfold cc0__hmlc_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

end Cert.KernelIdeal.Fr

end
-- ==== Proof.KDat.lean ====
/-
  The pipeline's proof data and the body obligation, for any float instance.

  The arrays are the region-entry contents; after the body at a point each input's buffer holds its block and
  the output's the 128 row values of that point. The two windows on the feature array hold it at the two halves
  of the full share, and so do the two on the label array: nothing writes either array while the pipeline runs.
-/
import proofs.«115237_j50706383896918_1_alg».proof.Proof.KBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (grid0.coords t) (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- The shares: the halves for the four input windows, the full share for the output. -/
theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KRun.lean ====
/-
  The launch: the whole program's run, for any float instance.

  The program is three items in a row: two conversions, the pipeline's region, seven closing operations. Between
  two items core `c` holds every unscoped buffer whole at a valuation: the launch contents, then those after the
  conversions (`V1`), then those with the pipeline's result array at what the pipeline wrote (`V2`), then those
  after the closing operations (`V3`). Entering the region, the converted feature array's full share is dealt in
  two halves to the two windows that read it, and likewise the label array's; leaving it the halves are put
  together again, both windows of a pair ending at the contents they began with.
-/
import proofs.«115237_j50706383896918_1_alg».proof.Proof.KDat
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The valuations between the items -/

/-- Core `c`'s unscoped buffers at launch. -/
abbrev V0 (c : Dev nD) : Valuation τ sig (Elt F) := fun b => m (c, b)

/-- After the region: the result array at what the pipeline wrote, everything else as the region found it. -/
abbrev V2 (c : Dev nD) : Valuation τ sig (Elt F) :=
  Function.update (V1 m c) (Proc.devRef .tc main_v2) ((dats m 0 c).arrAt 4 cfg0.N)

/-- After the closing operations. -/
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The unscoped buffers and the pipeline's arrays, one by one -/

/-- The twelve unscoped buffers. -/
abbrev ubL : List (Ref sig .tc) :=
  [main_arg0, main_arg1, main_v0, main_v1, main_v2, main_cst, main_v3, main_cst_0, main_v4, main_v5, main_cst_1, main_v6]

theorem unscopedBufs_list (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_cst) ↦{fullShare} W main_cst)
          ∗ (((c : Thread nD τ).loc main_v3) ↦{fullShare} W main_v3) ∗ (((c : Thread nD τ).loc main_cst_0) ↦{fullShare} W main_cst_0)
          ∗ (((c : Thread nD τ).loc main_v4) ↦{fullShare} W main_v4) ∗ (((c : Thread nD τ).loc main_v5) ↦{fullShare} W main_v5)
          ∗ (((c : Thread nD τ).loc main_cst_1) ↦{fullShare} W main_cst_1) ∗ (((c : Thread nD τ).loc main_v6) ↦{fullShare} W main_v6)) := by
  unfold unscopedBufs; exact bigSep_eq_bigSepL_of_eq ubL (by decide) (by decide) _

/-- The pipeline's arrays at contents `G`, window by window: the two halves of the converted feature array, the two
    halves of the converted label array, the result array whole. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare.left} G 2) ∗ (((c : Thread nD τ).loc main_v1) ↦{fullShare.right} G 3)
          ∗ (((c : Thread nD τ).loc main_v2) ↦{fullShare} G 4)) := by
  unfold Dat.arrays
  rw [bigSep_W0]
  rw [(arr_whole0 0).set_eq_univ, (arr_whole0 2).set_eq_univ, (arr_whole0 4).set_eq_univ]
  rfl

/-! ## The items as segments -/

abbrev 𝒱₀ : Variants := Variants.none
/-- No core owes another anything: no level is assigned. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm

/-- What rides beside the buffers through every item: the generator register at some state and the core owing nothing. -/
abbrev R (c : Dev nD) : sProp 𝕄 :=
  iprop((∃ r, prngReg c r) ∗ ∃ W, owes (c : Thread nD τ) (0 : CellTallies nD τ sig Unit) W)

/-- The two conversions, over the unscoped buffers from the launch contents. -/
def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-- The seven closing operations, over the unscoped buffers as the region left them. -/
def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

/-- The valuation after the region, by reference: the result array at what the pipeline wrote, -/
theorem V2_v2 (c : Dev nD) : V2 m c (Proc.devRef .tc main_v2) = (dats m 0 c).arrAt 4 cfg0.N := by
  simp only [V2, Function.update_self]
/-- every other buffer as the region found it. -/
theorem V2_of (c : Dev nD) (r : Ref sig .tc) (h : r ≠ main_v2) : V2 m c (Proc.devRef .tc r) = V m c r := by
  simp only [V2, Function.update_of_ne (StableHlo.devRef_ne_of_ne h : (Proc.devRef .tc r : DevRef τ sig) ≠ Proc.devRef .tc main_v2)]

/-- An input window's array is never written: it ends at its entry contents. -/
theorem arrAt_in0 (c : Dev nD) (n : Nat) : (dats m 0 c).arrAt 0 n = V m c main_v0 := ((dats m 0 c).arrAt_in 0 rfl n).trans (A_eq m c 0)
theorem arrAt_in1 (c : Dev nD) (n : Nat) : (dats m 0 c).arrAt 1 n = V m c main_v0 := ((dats m 0 c).arrAt_in 1 rfl n).trans (A_eq m c 1)
theorem arrAt_in2 (c : Dev nD) (n : Nat) : (dats m 0 c).arrAt 2 n = V m c main_v1 := ((dats m 0 c).arrAt_in 2 rfl n).trans (A_eq m c 2)
theorem arrAt_in3 (c : Dev nD) (n : Nat) : (dats m 0 c).arrAt 3 n = V m c main_v1 := ((dats m 0 c).arrAt_in 3 rfl n).trans (A_eq m c 3)
theorem arrAt_out0 (c : Dev nD) : (dats m 0 c).arrAt 4 0 = V m c main_v2 := A_eq m c 4

set_option backward.isDefEq.respectTransparency.types false in
/-- The region: entered from the buffers at `V1`, left with them at `V2`. -/
def reg0 : RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(∃ r, prngReg c r)
  Y c := iprop(∃ r, prngReg c r)
  Z c := iprop((((c : Thread nD τ).loc main_arg0) ↦{fullShare} V m c main_arg0) ∗ (((c : Thread nD τ).loc main_arg1) ↦{fullShare} V m c main_arg1)
    ∗ (((c : Thread nD τ).loc main_cst) ↦{fullShare} V m c main_cst) ∗ (((c : Thread nD τ).loc main_v3) ↦{fullShare} V m c main_v3)
    ∗ (((c : Thread nD τ).loc main_cst_0) ↦{fullShare} V m c main_cst_0) ∗ (((c : Thread nD τ).loc main_v4) ↦{fullShare} V m c main_v4)
    ∗ (((c : Thread nD τ).loc main_v5) ↦{fullShare} V m c main_v5) ∗ (((c : Thread nD τ).loc main_cst_1) ↦{fullShare} V m c main_cst_1)
    ∗ (((c : Thread nD τ).loc main_v6) ↦{fullShare} V m c main_v6))
  hentry c := by
    rw [show StableHlo.held (c : Thread nD τ) (Pipeline.ucRefs τ sig) (V1 m c) = unscopedBufs c (V m c) from
        (Pipeline.unscopedBufs_held (Ix := Unit) (Name := ℕ) (U := UR sig nD τ) (Lvl := ℕ) c (V1 m c)).symm,
      unscopedBufs_list, arrays_list]
    rw [show (dats m 0 c).arrAt 0 0 = V m c main_v0 from arrAt_in0 m c 0, show (dats m 0 c).arrAt 1 0 = V m c main_v0 from arrAt_in1 m c 0,
      show (dats m 0 c).arrAt 2 0 = V m c main_v1 from arrAt_in2 m c 0, show (dats m 0 c).arrAt 3 0 = V m c main_v1 from arrAt_in3 m c 0,
      show (dats m 0 c).arrAt 4 0 = V m c main_v2 from arrAt_out0 m c]
    iintro ⟨⟨⟨Ha0, Ha1, Hv0, Hv1, Hv2, Hc, Hv3, Hc0, Hv4, Hv5, Hc1, Hv6⟩, ⟨Hp, HO⟩⟩, -, -⟩
    ihave Hs0 := (pointsTo_share (PosShare.mem_left_op_right fullShare)).1 $$ Hv0
    icases Hs0 with ⟨Hv0l, Hv0r⟩
    ihave Hs1 := (pointsTo_share (PosShare.mem_left_op_right fullShare)).1 $$ Hv1
    icases Hs1 with ⟨Hv1l, Hv1r⟩
    imodintro
    isplitl [Hv0l Hv0r Hv1l Hv1r Hv2]
    · isplitl [Hv0l]; · iexact Hv0l
      isplitl [Hv0r]; · iexact Hv0r
      isplitl [Hv1l]; · iexact Hv1l
      isplitl [Hv1r]; · iexact Hv1r
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Hc]; · iexact Hc
    isplitl [Hv3]; · iexact Hv3
    isplitl [Hc0]; · iexact Hc0
    isplitl [Hv4]; · iexact Hv4
    isplitl [Hv5]; · iexact Hv5
    isplitl [Hc1]; · iexact Hc1
    iexact Hv6
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (V2 m c) = unscopedBufs c (fun b => V2 m c (Proc.devRef .tc b)) from
        (Pipeline.unscopedBufs_held (Ix := Unit) (Name := ℕ) (U := UR sig nD τ) (Lvl := ℕ) c (V2 m c)).symm,
      unscopedBufs_list, arrays_list]
    rw [V2_v2, V2_of m c main_arg0 (by decide), V2_of m c main_arg1 (by decide), V2_of m c main_v0 (by decide), V2_of m c main_v1 (by decide),
      V2_of m c main_cst (by decide), V2_of m c main_v3 (by decide), V2_of m c main_cst_0 (by decide), V2_of m c main_v4 (by decide),
      V2_of m c main_v5 (by decide), V2_of m c main_cst_1 (by decide), V2_of m c main_v6 (by decide),
      arrAt_in0, arrAt_in1, arrAt_in2, arrAt_in3]
    iintro ⟨⟨Hv0l, Hv0r, Hv1l, Hv1r, Hv2⟩, HO, Hp, ⟨Ha0, Ha1, Hc, Hv3, Hc0, Hv4, Hv5, Hc1, Hv6⟩⟩
    ihave Hv0 := (pointsTo_share (PosShare.mem_left_op_right fullShare)).2 $$ [Hv0l Hv0r]
    · isplitl [Hv0l] <;> iassumption
    ihave Hv1 := (pointsTo_share (PosShare.mem_left_op_right fullShare)).2 $$ [Hv1l Hv1r]
    · isplitl [Hv1l] <;> iassumption
    imodintro
    isplitr [Hp HO]
    · isplitl [Ha0]; · iexact Ha0
      isplitl [Ha1]; · iexact Ha1
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      isplitl [Hv4]; · iexact Hv4
      isplitl [Hv5]; · iexact Hv5
      isplitl [Hc1]; · iexact Hc1
      iexact Hv6
    · isplitl [Hp]; · iexact Hp
      unfold Pipeline.Dat.owesAt Pipeline.owesWithin
      icases HO with ⟨%W, -, HO⟩; iexists W; iexact HO

/-- The program as the list of the three. -/
abbrev segs : List (Seg (pcfgs (F := F)) adm (dats m) () defs₀ 𝒱₀ L lv) := [.host (seg0 m), .region (reg0 m), .host (seg2 m)]

/-! ## What the host operations write -/

abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, Finset.singleton_subset_iff, List.mem_toFinset]; exact ⟨List.mem_map_of_mem (by decide), List.mem_map_of_mem (by decide)⟩)
abbrev hostOps1_W : List (Ref sig .tc) := [main_cst, main_v3, main_cst_0, main_v4, main_v5, main_cst_1, main_v6]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide), List.mem_map_of_mem (by decide)⟩)

/-- No item writes an argument: each reaches the end as launched. -/
theorem V3_arg0 (c : Dev nD) : V3 m c (Proc.devRef .tc main_arg0) = m ((c : Thread nD τ).loc main_arg0) :=
  (StableHlo.after_of_writes_sub hostOps1 _ hostOps1_writes (by decide)).trans <| (V2_of m c main_arg0 (by decide)).trans <|
    (StableHlo.after_of_writes_sub hostOps0 _ hostOps0_writes (by decide)).trans rfl
theorem V3_arg1 (c : Dev nD) : V3 m c (Proc.devRef .tc main_arg1) = m ((c : Thread nD τ).loc main_arg1) :=
  (StableHlo.after_of_writes_sub hostOps1 _ hostOps1_writes (by decide)).trans <| (V2_of m c main_arg1 (by decide)).trans <|
    (StableHlo.after_of_writes_sub hostOps0 _ hostOps0_writes (by decide)).trans rfl
/-- The conversions write neither argument. -/
theorem V_arg0 (c : Dev nD) : V m c main_arg0 = m ((c : Thread nD τ).loc main_arg0) :=
  (StableHlo.after_of_writes_sub hostOps0 _ hostOps0_writes (by decide)).trans rfl
theorem V_arg1 (c : Dev nD) : V m c main_arg1 = m ((c : Thread nD τ).loc main_arg1) :=
  (StableHlo.after_of_writes_sub hostOps0 _ hostOps0_writes (by decide)).trans rfl

/-! ## The run -/

set_option backward.isDefEq.respectTransparency.types false in
/-- At the compiled mesh, for any float values, from any memory with zero counters: every weakly fair execution of
    the program terminates, and every final state has every unscoped buffer at the last valuation. -/
theorem run_main : θ_run defs (onTc (τ := τ) (main (F := F))) ⟨m, fun _ => 0, ρ⟩ (fun r => ∀ c : Dev nD,
    ∀ b ∈ Pipeline.ucRefs τ sig, r.2.mem ((c : Thread nD τ).1, b) = V3 m c b) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V3 m c) ∗ ∃ r, prngReg c r))
    (hch := ⟨fun _ => .rfl, fun _ => .rfl, fun _ => .rfl, fun c => by
      show iprop(StableHlo.held (c : Thread nD τ) (Pipeline.ucRefs τ sig) (V3 m c) ∗ R c) ⊢ _
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V3 m c b)
    (hfin := fun c s' => by
      unfold StableHlo.held
      iintro ⟨⟨Hh, -⟩, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro; exact h
      · iexact HSI)
    (hQ := fun _ h => h)

/-- The run read at the result and the two arguments. -/
theorem run_vals : θ_run defs (onTc (τ := τ) (main (F := F))) ⟨m, fun _ => 0, ρ⟩ (fun r => ∀ c : Dev nD,
    r.2.mem ((c.tc : Thread nD τ).loc main_v6) = V3 m c (Proc.devRef .tc main_v6)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨h c (Proc.devRef .tc main_v6) (Finset.mem_filter.mpr ⟨StableHlo.devRef_mem_tcRefs main_v6, by decide⟩),
     (h c (Proc.devRef .tc main_arg0) (Finset.mem_filter.mpr ⟨StableHlo.devRef_mem_tcRefs main_arg0, by decide⟩)).trans (V3_arg0 m c),
     (h c (Proc.devRef .tc main_arg1) (Finset.mem_filter.mpr ⟨StableHlo.devRef_mem_tcRefs main_arg1, by decide⟩)).trans (V3_arg1 m c)⟩)
    (run_main m ρ)

/-- The frame: the program runs to the end, nothing faulting, and both argument arrays end as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => (h c).2) (run_vals m ρ)

end Cert.KernelIdeal.Fr

end
-- ==== Proof.Spec.lean ====
/-
  The loss, written once as a function of the two argument arrays.

  For a batch of 4096 feature rows (width 128) and 4096 multi-hot label rows (width 50), row r's value is the
  mask-weighted mean log-probability of a supervised-contrastive loss with a hierarchical label mask:

    s(r,c)    = <x_r, x_c> * (1/T)                          the scaled similarity of rows r and c (T the temperature)
    lg(r,c)   = s(r,c) - max_c s(r,c)
    d(r,c)    = 0 on the diagonal, 1 off it
    mn(r,c)   = (<l_r, l_c> / max(|l_r|, |l_c|)) * d(r,c)   the label overlap, normalised by the larger label count
    lse(r)    = log (sum_c exp(lg(r,c)) * d(r,c) + eps)
    mb(r,c)   = 1 where mn(r,c) > 0, else mn(r,c)
    row(r)    = (sum_c mn(r,c) * (lg(r,c) - lse(r))) / (sum_c mb(r,c) + eps)

  and the result is -(mean_r row(r)) / 2. Everything is over the extended reals; quotients are the ideal
  instance's quotient, the row maximum is a fold of max from the bottom element.

  `rowG` takes the row's own feature and label vectors apart from the whole arrays, so that it can be read both
  of a tile of rows held beside the whole array and of the whole array alone (`rows`).
-/
import Idealize.ShloMosaic.PureOps.Ideal
import Idealize.ShloMosaic.PureOps.Ideal.Laws
import Idealize.ShloMosaic.PureOps
import Idealize.ShloMosaic.Lib.ValueIdx

noncomputable section

open scoped BigOperators

namespace Cert.Hmlc

open Idealize.ShloMosaic Idealize.ShloMosaic.ValueIdx

abbrev SB : Shape := ⟨1, ![4096]⟩
abbrev S0 : Shape := ⟨0, ![]⟩

/-- The reciprocal of the temperature: the temperature is the binary fraction 9395241 / 2^27. -/
def invT : EReal := ((134217728 / 9395241 : ℝ) : EReal)
/-- The small positive constant added under the logarithm and to the denominator. -/
def eps : EReal := Ideal.ofBits .f32 0x2B8CBCCC#32
/-- The seed of a row maximum: minus infinity. -/
def seed : EReal := Ideal.ofBits .f32 0xFF800000#32
/-- The float one. -/
def one : EReal := Ideal.ofBits .f32 0x3F800000#32

section Row

variable (xr : Fin 128 → EReal) (lr : Fin 50 → EReal) (X : Fin 4096 → Fin 128 → EReal) (Lb : Fin 4096 → Fin 50 → EReal) (r : ℕ)

/-- The scaled similarity of the row with row `c`. -/
def sc (c : Fin 4096) : EReal := (∑ k : Fin 128, xr k * X c k) * invT
/-- The row's largest scaled similarity. -/
def rmax : EReal := (Finset.univ : Finset (Fin 4096)).fold max seed (sc xr X)
/-- The shifted similarity. -/
def lg (c : Fin 4096) : EReal := sc xr X c - rmax xr X
/-- Zero on the diagonal, one off it. -/
def dm (c : Fin 4096) : EReal := if r = c.val then 0 else one
/-- A label row's count. -/
def cnt (l : Fin 50 → EReal) : EReal := ∑ k : Fin 50, l k
/-- The normalised label overlap, the diagonal removed. -/
def mn (c : Fin 4096) : EReal := Ideal.div (∑ k : Fin 50, lr k * Lb c k) (max (cnt lr) (cnt (Lb c))) * dm r c
/-- The exponential of the shifted similarity, the diagonal removed. -/
def ex (c : Fin 4096) : EReal := Ideal.exp (lg xr X c) * dm r c
/-- The logarithm of the row's sum of exponentials. -/
def lse : EReal := Ideal.log ((∑ c : Fin 4096, ex xr X r c) + eps)
/-- The log-probability. -/
def lp (c : Fin 4096) : EReal := lg xr X c - lse xr X r
/-- The overlap made binary where positive. -/
def mb (c : Fin 4096) : EReal := if 0 < mn lr Lb r c then one else mn lr Lb r c
/-- The row's value. -/
def rowG : EReal := Ideal.div (∑ c : Fin 4096, mn lr Lb r c * lp xr X r c) ((∑ c : Fin 4096, mb lr Lb r c) + eps)

end Row

/-- Every row's value, of the whole arrays. -/
def rows (X : Fin 4096 → Fin 128 → EReal) (Lb : Fin 4096 → Fin 50 → EReal) : FVec Ideal SB .f32 :=
  fun j => rowG (X (j 0)) (Lb (j 0)) X Lb (j 0).val

/-- The closing host operations both programs share: minus the mean of the rows, halved. -/
def tail (v : FVec Ideal SB .f32) : FVec Ideal S0 .f32 :=
  Host.divf (F := Ideal)
    (Host.negf (F := Ideal)
      (Host.divf (F := Ideal) (Host.reduceAdd (F := Ideal) v (constant (F := Ideal) S0 .f32 0x00000000#32) (show SB.ReducesTo [0] S0 by decide) (show 0 < S0.numel by decide))
        (constant (F := Ideal) S0 .f32 0x45800000#32)))
    (constant (F := Ideal) S0 .f32 0x40000000#32)

/-- The loss as a function of the two argument arrays, read as extended reals by coordinates. -/
def loss (A0 : (⟨2, ![4096, 128]⟩ : Shape).Idx → EReal) (A1 : (⟨2, ![4096, 50]⟩ : Shape).Idx → EReal) : FVec Ideal S0 .f32 :=
  tail (rows (fun r k => A0 (ix2 r k)) (fun r k => A1 (ix2 r k)))

end Cert.Hmlc

end
-- ==== Proof.KernelRow.lean ====
/-
  The kernel body's one stored value, read at a row.

  At grid point i the body holds a tile of 128 feature rows and 128 label rows beside the whole feature and label arrays.
  Its stored value at row p of the tile is the specification's row value (Spec.rowG) of the tile's rows p, the whole
  arrays, and the row's global index i * 128 + p, which only the diagonal mask reads. Each intermediate value of the
  body is read at an index (p, c): the shifted similarity, the diagonal mask, the normalised label overlap and the
  masked exponential; the stored value is then the quotient of two row sums.
-/
import proofs.«115237_j50706383896918_1_alg».proof.Proof.Gen.KernelIdeal.Skeleton
import proofs.«115237_j50706383896918_1_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.IdealRules

noncomputable section

open scoped BigOperators

namespace Cert.Hmlc.Kern

open Cert.KernelIdeal Cert.KernelIdeal.Gen Idealize.ShloMosaic Idealize.ShloMosaic.ValueIdx

/-! ## Layout operations at an index: the column forms -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The named constant -/

/-- The kernel's named reciprocal of the temperature denotes the specification's rational. -/
theorem inv_t : Named.named (F := Ideal) Cert.KernelIdeal.κ "inv_t" (φ := .f32) 0x41649249#32 = Cert.Hmlc.invT :=
  IdealRules.named_const.ideal_named_scalar _ _ _ _ rfl

/-! ## The two products at an index -/

theorem lhs_mm1_0 (i : S128x4096.Idx) (q : dot_S128x128_S128x4096_S128x4096_1_0_0_1_n_n.contr.Idx) :
    (dot_S128x128_S128x4096_S128x4096_1_0_0_1_n_n.lhsIdx i q 0).val = (i 0).val := by
  unfold DotDims.lhsIdx
  rw [dif_neg (show ¬(0 : Fin S128x128.rank) ∈ dot_S128x128_S128x4096_S128x4096_1_0_0_1_n_n.lhsBatch by decide), dif_pos (show (0 : Fin S128x128.rank) ∈ dot_S128x128_S128x4096_S128x4096_1_0_0_1_n_n.lhsNonContracting by decide)]
  rfl
theorem lhs_mm1_1 (i : S128x4096.Idx) (q : dot_S128x128_S128x4096_S128x4096_1_0_0_1_n_n.contr.Idx) :
    (dot_S128x128_S128x4096_S128x4096_1_0_0_1_n_n.lhsIdx i q 1).val = (q ⟨0, by decide⟩).val :=
  dot_S128x128_S128x4096_S128x4096_1_0_0_1_n_n.lhsIdx_val_of_single rfl i q
theorem rhs_mm1_0 (i : S128x4096.Idx) (q : dot_S128x128_S128x4096_S128x4096_1_0_0_1_n_n.contr.Idx) :
    (dot_S128x128_S128x4096_S128x4096_1_0_0_1_n_n.rhsIdx i q 0).val = (q ⟨0, by decide⟩).val :=
  dot_S128x128_S128x4096_S128x4096_1_0_0_1_n_n.rhsIdx_val_of_single rfl i q
theorem rhs_mm1_1 (i : S128x4096.Idx) (q : dot_S128x128_S128x4096_S128x4096_1_0_0_1_n_n.contr.Idx) :
    (dot_S128x128_S128x4096_S128x4096_1_0_0_1_n_n.rhsIdx i q 1).val = (i 1).val := by
  unfold DotDims.rhsIdx
  rw [dif_neg (show ¬(1 : Fin S128x4096.rank) ∈ dot_S128x128_S128x4096_S128x4096_1_0_0_1_n_n.rhsBatch by decide), dif_pos (show (1 : Fin S128x4096.rank) ∈ dot_S128x128_S128x4096_S128x4096_1_0_0_1_n_n.rhsNonContracting by decide)]
  rfl

/-- The feature product into a zero accumulator, at `(p, c)`: the sum over the 128 features. -/
theorem mm1_at (a : FVec Ideal S128x128 .bf16) (b : FVec Ideal S128x4096 .bf16) (p : Fin 128) (c : Fin 4096) :
    matmul dot_S128x128_S128x4096_S128x4096_1_0_0_1_n_n none a b (constant (F := Ideal) S128x4096 .f32 0x00000000#32) (ix2 p c)
      = ∑ k : Fin 128, a (ix2 p k) * b (ix2 k c) := by
  simp only [matmul]
  rw [Ideal.matmul_constant_zero_apply, ← Equiv.sum_comp (ValueIdx.contrEquiv1 dot_S128x128_S128x4096_S128x4096_1_0_0_1_n_n 128 rfl rfl).symm]
  refine Finset.sum_congr rfl fun k _ => ?_
  have hk := ValueIdx.contrEquiv1_symm_val dot_S128x128_S128x4096_S128x4096_1_0_0_1_n_n 128 rfl rfl k
  have el : dot_S128x128_S128x4096_S128x4096_1_0_0_1_n_n.lhsIdx (ix2 p c) ((ValueIdx.contrEquiv1 dot_S128x128_S128x4096_S128x4096_1_0_0_1_n_n 128 rfl rfl).symm k) = ix2 p k := funext fun ax => Fin.ext (by
    match ax with
    | ⟨0, _⟩ => exact lhs_mm1_0 _ _
    | ⟨1, _⟩ => exact (lhs_mm1_1 _ _).trans hk)
  have er : dot_S128x128_S128x4096_S128x4096_1_0_0_1_n_n.rhsIdx (ix2 p c) ((ValueIdx.contrEquiv1 dot_S128x128_S128x4096_S128x4096_1_0_0_1_n_n 128 rfl rfl).symm k) = ix2 k c := funext fun ax => Fin.ext (by
    match ax with
    | ⟨0, _⟩ => exact (rhs_mm1_0 _ _).trans hk
    | ⟨1, _⟩ => exact rhs_mm1_1 _ _)
  rw [el, er]

theorem lhs_mm2_0 (i : S128x4096.Idx) (q : dot_S128x50_S50x4096_S128x4096_1_0_0_1_n_n.contr.Idx) :
    (dot_S128x50_S50x4096_S128x4096_1_0_0_1_n_n.lhsIdx i q 0).val = (i 0).val := by
  unfold DotDims.lhsIdx
  rw [dif_neg (show ¬(0 : Fin S128x50.rank) ∈ dot_S128x50_S50x4096_S128x4096_1_0_0_1_n_n.lhsBatch by decide), dif_pos (show (0 : Fin S128x50.rank) ∈ dot_S128x50_S50x4096_S128x4096_1_0_0_1_n_n.lhsNonContracting by decide)]
  rfl
theorem lhs_mm2_1 (i : S128x4096.Idx) (q : dot_S128x50_S50x4096_S128x4096_1_0_0_1_n_n.contr.Idx) :
    (dot_S128x50_S50x4096_S128x4096_1_0_0_1_n_n.lhsIdx i q 1).val = (q ⟨0, by decide⟩).val :=
  dot_S128x50_S50x4096_S128x4096_1_0_0_1_n_n.lhsIdx_val_of_single rfl i q
theorem rhs_mm2_0 (i : S128x4096.Idx) (q : dot_S128x50_S50x4096_S128x4096_1_0_0_1_n_n.contr.Idx) :
    (dot_S128x50_S50x4096_S128x4096_1_0_0_1_n_n.rhsIdx i q 0).val = (q ⟨0, by decide⟩).val :=
  dot_S128x50_S50x4096_S128x4096_1_0_0_1_n_n.rhsIdx_val_of_single rfl i q
theorem rhs_mm2_1 (i : S128x4096.Idx) (q : dot_S128x50_S50x4096_S128x4096_1_0_0_1_n_n.contr.Idx) :
    (dot_S128x50_S50x4096_S128x4096_1_0_0_1_n_n.rhsIdx i q 1).val = (i 1).val := by
  unfold DotDims.rhsIdx
  rw [dif_neg (show ¬(1 : Fin S50x4096.rank) ∈ dot_S128x50_S50x4096_S128x4096_1_0_0_1_n_n.rhsBatch by decide), dif_pos (show (1 : Fin S50x4096.rank) ∈ dot_S128x50_S50x4096_S128x4096_1_0_0_1_n_n.rhsNonContracting by decide)]
  rfl

/-- The label product into a zero accumulator, at `(p, c)`: the sum over the 50 labels. -/
theorem mm2_at (a : FVec Ideal S128x50 .bf16) (b : FVec Ideal S50x4096 .bf16) (p : Fin 128) (c : Fin 4096) :
    matmul dot_S128x50_S50x4096_S128x4096_1_0_0_1_n_n none a b (constant (F := Ideal) S128x4096 .f32 0x00000000#32) (ix2 p c)
      = ∑ k : Fin 50, a (ix2 p k) * b (ix2 k c) := by
  simp only [matmul]
  rw [Ideal.matmul_constant_zero_apply, ← Equiv.sum_comp (ValueIdx.contrEquiv1 dot_S128x50_S50x4096_S128x4096_1_0_0_1_n_n 50 rfl rfl).symm]
  refine Finset.sum_congr rfl fun k _ => ?_
  have hk := ValueIdx.contrEquiv1_symm_val dot_S128x50_S50x4096_S128x4096_1_0_0_1_n_n 50 rfl rfl k
  have el : dot_S128x50_S50x4096_S128x4096_1_0_0_1_n_n.lhsIdx (ix2 p c) ((ValueIdx.contrEquiv1 dot_S128x50_S50x4096_S128x4096_1_0_0_1_n_n 50 rfl rfl).symm k) = ix2 p k := funext fun ax => Fin.ext (by
    match ax with
    | ⟨0, _⟩ => exact lhs_mm2_0 _ _
    | ⟨1, _⟩ => exact (lhs_mm2_1 _ _).trans hk)
  have er : dot_S128x50_S50x4096_S128x4096_1_0_0_1_n_n.rhsIdx (ix2 p c) ((ValueIdx.contrEquiv1 dot_S128x50_S50x4096_S128x4096_1_0_0_1_n_n 50 rfl rfl).symm k) = ix2 k c := funext fun ax => Fin.ext (by
    match ax with
    | ⟨0, _⟩ => exact (rhs_mm2_0 _ _).trans hk
    | ⟨1, _⟩ => exact rhs_mm2_1 _ _)
  rw [el, er]

/-! ## The row reductions at an index -/

/-- The index a one-axis reduction of a `[a, b]` array along its columns inserts is `(p, c)`. -/
theorem lift_row {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A row's sum over 4096 columns. -/
theorem rsum4096_at (v : FVec Ideal S128x4096 .f32) (p : Fin 128) :
    multiReduction (F := Ideal) .add [1] S128 v 0x00000000#32 reduces_S128x4096_S128 (.inl rfl) rfl (ix1 p)
      = ∑ c : Fin 4096, v (ix2 p c) := by
  refine (Ideal.multiReduction_add_single v 0x00000000#32 reduces_S128x4096_S128 (.inl rfl) rfl (ix1 p)).trans ?_
  exact Finset.sum_congr rfl fun c _ => congrArg v (lift_row reduces_S128x4096_S128 p c)

/-- A tile label row's sum over its 50 labels. -/
theorem rsum50_at (v : FVec Ideal S128x50 .f32) (p : Fin 128) :
    multiReduction (F := Ideal) .add [1] S128 v 0x00000000#32 reduces_S128x50_S128 (.inl rfl) rfl (ix1 p)
      = ∑ k : Fin 50, v (ix2 p k) := by
  refine (Ideal.multiReduction_add_single v 0x00000000#32 reduces_S128x50_S128 (.inl rfl) rfl (ix1 p)).trans ?_
  exact Finset.sum_congr rfl fun c _ => congrArg v (lift_row reduces_S128x50_S128 p c)

/-- A whole-array label row's sum over its 50 labels. -/
theorem csum50_at (v : FVec Ideal S4096x50 .f32) (c : Fin 4096) :
    multiReduction (F := Ideal) .add [1] S4096 v 0x00000000#32 reduces_S4096x50_S4096 (.inl rfl) rfl (ix1 c)
      = ∑ k : Fin 50, v (ix2 c k) := by
  refine (Ideal.multiReduction_add_single v 0x00000000#32 reduces_S4096x50_S4096 (.inl rfl) rfl (ix1 c)).trans ?_
  exact Finset.sum_congr rfl fun k _ => congrArg v (lift_row reduces_S4096x50_S4096 c k)

/-- A row's maximum over 4096 columns, folded from minus infinity. -/
theorem rmax4096_at (v : FVec Ideal S128x4096 .f32) (p : Fin 128) :
    multiReduction (F := Ideal) .maximumf [1] S128 v 0xFF800000#32 reduces_S128x4096_S128 (.inl rfl) rfl (ix1 p)
      = (Finset.univ : Finset (Fin 4096)).fold max Cert.Hmlc.seed (fun c => v (ix2 p c)) := by
  refine (Ideal.multiReduction_maximumf_single v 0xFF800000#32 reduces_S128x4096_S128 (.inl rfl) rfl (ix1 p)).trans ?_
  refine congrArg (fun f => (Finset.univ : Finset (Fin 4096)).fold max Cert.Hmlc.seed f) ?_
  exact funext fun c => congrArg v (lift_row reduces_S128x4096_S128 p c)

/-! ## The shifted similarity -/

/-- The scaled similarity at `(p, c)`: the feature product of tile row `p` with row `c`, times the reciprocal temperature. -/
theorem sim_at (a : FVec Ideal S128x128 .bf16) (b : FVec Ideal S4096x128 .bf16) (p : Fin 128) (c : Fin 4096) :
    mulf (matmul dot_S128x128_S128x4096_S128x4096_1_0_0_1_n_n none a
        (transpose S128x4096 [1, 0] b transposes_S4096x128_p1_0_S128x4096) (constant (F := Ideal) S128x4096 .f32 0x00000000#32))
      (broadcast S128x4096 (Named.named (F := Ideal) Cert.KernelIdeal.κ "inv_t" (φ := .f32) 0x41649249#32)) (ix2 p c)
      = Cert.Hmlc.sc (fun k => a (ix2 p k)) (fun c k => b (ix2 c k)) c := by
  rw [mulf_apply, broadcast_apply, mm1_at, inv_t]
  refine congrArg (· * Cert.Hmlc.invT) (Finset.sum_congr rfl fun k _ => ?_)
  exact congrArg (a (ix2 p k) * ·) (transpose_ix2_apply b transposes_S4096x128_p1_0_S128x4096 k c)

/-- A value minus its row maximum, at `(p, c)`, once the value's row `p` is known as a function of the column. -/
theorem sub_rowmax_at (v : FVec Ideal S128x4096 .f32) (f : Fin 4096 → EReal) (p : Fin 128) (hv : ∀ c, v (ix2 p c) = f c) (c : Fin 4096) :
    subf v (broadcastTo S128x4096 (shapeCast S128x1
        (multiReduction (F := Ideal) .maximumf [1] S128 v 0xFF800000#32 reduces_S128x4096_S128 (.inl rfl) rfl)
        shapeCasts_S128_S128x1) broadcasts_S128x1_S128x4096) (ix2 p c)
      = f c - (Finset.univ : Finset (Fin 4096)).fold max Cert.Hmlc.seed f := by
  rw [subf_apply, broadcastTo_a1_ab_apply, shapeCast_a_a1_apply, rmax4096_at, hv c, show (fun c => v (ix2 p c)) = f from funext hv]

/-- The kernel's shifted similarity at `(p, c)` is the specification's. -/
theorem pay2_at (x0 : FVec Ideal S128x128 .bf16) (x1 : FVec Ideal S4096x128 .bf16) (p : Fin 128) (c : Fin 4096) :
    k0_pay2 (F := Ideal) x0 x1 (ix2 p c) = Cert.Hmlc.lg (fun k => x0 (ix2 p k)) (fun c k => x1 (ix2 c k)) c := by
  unfold k0_pay2
  rw [shapeCast_self x0, shapeCast_self x1]
  exact sub_rowmax_at _ _ p (fun c => sim_at x0 x1 p c) c

/-! ## The diagonal mask -/

/-- The 32-bit words of a tile's row index and of a column index are equal exactly when the indices are. -/
theorem word_eq_iff (g p c : ℕ) (hg : g < 32) (hp : p < 128) (hc : c < 4096) :
    (BitVec.ofNat 32 g * 128#32 + BitVec.ofNat 32 p = BitVec.ofNat 32 c) ↔ g * 128 + p = c := by
  rw [← BitVec.toNat_inj]
  simp only [BitVec.toNat_add, BitVec.toNat_mul, BitVec.toNat_ofNat, Nat.reducePow, Nat.reduceMod]
  omega

/-- A select on a word comparison is the `if` on the words' equality. -/
theorem select_cmpi_eq {α : Type} (x y : BitVec 32) (A B : α) :
    Scalar.select (IntOp.cmpi .eq x y) A B = if x = y then A else B := by
  by_cases h : x = y
  · subst h; simp [Scalar.select, IntOp.cmpi]
  · have hb : (x == y) = false := beq_eq_false_iff_ne.mpr h
    simp [Scalar.select, IntOp.cmpi, hb, h]

/-- A word comparison of two vectors at an index compares the elements. -/
theorem cmpi_apply {s : Shape} {w : ℕ} (pr : CmpIPredicate) (x y : IVec s w) (i : s.Idx) :
    cmpi pr x y i = IntOp.cmpi pr (x i) (y i) := rfl
/-- A word sum of two vectors at an index adds the elements. -/
theorem addi_apply {s : Shape} {w : ℕ} (x y : IVec s w) (i : s.Idx) : addi x y i = x i + y i := rfl

/-- The kernel's diagonal mask at `(p, c)` is the specification's at the row's global index. -/
theorem pay3_at (i : grid0.Coords) (p : Fin 128) (c : Fin 4096) :
    k0_pay3 (F := Ideal) i (ix2 p c) = Cert.Hmlc.dm ((i 0).val * 128 + p.val) c := by
  have hg : (i 0).val < 32 := (i 0).isLt
  unfold k0_pay3
  rw [select_apply, cmpi_apply, broadcastTo_a1_ab_apply, broadcastTo_1b_ab_apply, addi_apply, iota_single_apply, iota_single_apply, select_cmpi_eq]
  show (if BitVec.ofNat 32 (i 0).val * 128#32 + BitVec.ofNat 32 p.val = BitVec.ofNat 32 c.val then Ideal.ofBits .f32 0x00000000#32 else Cert.Hmlc.one)
    = if (i 0).val * 128 + p.val = c.val then 0 else Cert.Hmlc.one
  rw [Ideal.ofBits_zero_f32]
  by_cases h : (i 0).val * 128 + p.val = c.val
  · rw [if_pos h, if_pos ((word_eq_iff _ _ _ hg p.isLt c.isLt).mpr h)]
  · rw [if_neg h, if_neg (fun h' => h ((word_eq_iff _ _ _ hg p.isLt c.isLt).mp h'))]

/-! ## The normalised label overlap and the masked exponential -/

/-- The kernel's normalised label overlap at `(p, c)` is the specification's. -/
theorem pay4_at (i : grid0.Coords) (x2 : FVec Ideal S128x50 .bf16) (x3 : FVec Ideal S4096x50 .bf16) (p : Fin 128) (c : Fin 4096) :
    k0_pay4 (F := Ideal) i x2 x3 (ix2 p c)
      = Cert.Hmlc.mn (fun k => x2 (ix2 p k)) (fun c k => x3 (ix2 c k)) ((i 0).val * 128 + p.val) c := by
  unfold k0_pay4
  rw [shapeCast_self x2, shapeCast_self x3]
  rw [mulf_apply, pay3_at, divf_apply, mm2_at, maximumf_apply, broadcastTo_a1_ab_apply, shapeCast_a_a1_apply, rsum50_at,
    broadcastTo_1b_ab_apply, shapeCast_a_1a_apply, csum50_at]
  have ht : (∑ k : Fin 50, x2 (ix2 p k) * transpose S50x4096 [1, 0] x3 transposes_S4096x50_p1_0_S50x4096 (ix2 k c))
      = ∑ k : Fin 50, x2 (ix2 p k) * x3 (ix2 c k) :=
    Finset.sum_congr rfl fun k _ => congrArg (x2 (ix2 p k) * ·) (transpose_ix2_apply x3 transposes_S4096x50_p1_0_S50x4096 k c)
  rw [ht]
  rfl

/-- An exponential of a vector at an index is the exponential of the element. -/
theorem exp_apply {s : Shape} {φ : FTy} (a : FVec Ideal s φ) (i : s.Idx) : exp a i = Ideal.exp (a i) := rfl
/-- A logarithm of a vector at an index is the logarithm of the element. -/
theorem log_apply {s : Shape} {φ : FTy} (a : FVec Ideal s φ) (i : s.Idx) : log a i = Ideal.log (a i) := rfl

/-- The kernel's masked exponential at `(p, c)` is the specification's. -/
theorem pay5_at (i : grid0.Coords) (x0 : FVec Ideal S128x128 .bf16) (x1 : FVec Ideal S4096x128 .bf16) (p : Fin 128) (c : Fin 4096) :
    k0_pay5 (F := Ideal) i x0 x1 (ix2 p c)
      = Cert.Hmlc.ex (fun k => x0 (ix2 p k)) (fun c k => x1 (ix2 c k)) ((i 0).val * 128 + p.val) c := by
  unfold k0_pay5
  rw [mulf_apply, pay3_at, exp_apply, pay2_at]
  rfl

/-! ## The stored value -/

/-- A select of one where the element is above zero, else the element: the `if` on the order. -/
theorem select_ogt_zero (a : EReal) :
    Scalar.select (FloatOps.cmpf (F := Ideal) (φ := .f32) .ogt a (Scalar.ofBits .f32 0x00000000#32)) (Scalar.ofBits (F := Ideal) .f32 0x3F800000#32) a
      = if 0 < a then Cert.Hmlc.one else a := by
  show Scalar.select (Ideal.cmp .ogt a (Ideal.ofBits .f32 0x00000000#32)) Cert.Hmlc.one a = _
  rw [Ideal.ofBits_zero_f32]
  by_cases h : 0 < a
  · simp [Scalar.select, Ideal.cmp, h]
  · simp [Scalar.select, Ideal.cmp, h]

/-- The stored value at row `p`, once the three values it reads are known on row `p` as functions of the column. -/
theorem pay1_at (v16 v39 v41 : FVec Ideal S128x4096 .f32) (p : Fin 128) (Lg M E : Fin 4096 → EReal)
    (h16 : ∀ c, v16 (ix2 p c) = Lg c) (h39 : ∀ c, v39 (ix2 p c) = M c) (h41 : ∀ c, v41 (ix2 p c) = E c) :
    k0_pay1 (F := Ideal) v16 v39 v41 (ix1 p)
      = Ideal.div (∑ c : Fin 4096, M c * (Lg c - Ideal.log ((∑ c : Fin 4096, E c) + Cert.Hmlc.eps)))
          ((∑ c : Fin 4096, (if 0 < M c then Cert.Hmlc.one else M c)) + Cert.Hmlc.eps) := by
  unfold k0_pay1
  rw [divf_apply, rsum4096_at, addf_apply, rsum4096_at, broadcast_apply]
  have hnum : ∀ c : Fin 4096,
      mulf v39 (subf v16 (broadcastTo S128x4096 (log (addf (shapeCast S128x1
          (multiReduction (F := Ideal) .add [1] S128 v41 0x00000000#32 reduces_S128x4096_S128 (.inl rfl) rfl) shapeCasts_S128_S128x1)
          (broadcast S128x1 (Scalar.ofBits (F := Ideal) .f32 0x2B8CBCCC#32)))) broadcasts_S128x1_S128x4096)) (ix2 p c)
        = M c * (Lg c - Ideal.log ((∑ c : Fin 4096, E c) + Cert.Hmlc.eps)) := fun c => by
    rw [mulf_apply, subf_apply, broadcastTo_a1_ab_apply, log_apply, addf_apply, shapeCast_a_a1_apply, rsum4096_at,
      broadcast_apply, h39, h16, show (fun c => v41 (ix2 p c)) = E from funext h41]
    rfl
  have hden : ∀ c : Fin 4096,
      select (cmpf .ogt v39 (broadcast S128x4096 (Scalar.ofBits (F := Ideal) .f32 0x00000000#32)))
          (broadcast S128x4096 (Scalar.ofBits (F := Ideal) .f32 0x3F800000#32)) v39 (ix2 p c)
        = (if 0 < M c then Cert.Hmlc.one else M c) := fun c => by
    rw [select_apply, cmpf_apply, broadcast_apply, broadcast_apply, h39]
    exact select_ogt_zero (M c)
  rw [Finset.sum_congr rfl fun c _ => hnum c, Finset.sum_congr rfl fun c _ => hden c]
  rfl

/-- THE ROW: the body's stored value at row `p` of the tile at grid point `i` is the specification's row value of the
    tile's rows `p`, the whole arrays, and the global row index. -/
theorem pay_row (i : grid0.Coords) (x0 : Vec Ideal S128x128 .bf16) (x1 : Vec Ideal S4096x128 .bf16) (x2 : Vec Ideal S128x50 .bf16) (x3 : Vec Ideal S4096x50 .bf16) (p : Fin 128) :
    k0_pay1 (F := Ideal) (k0_pay2 x0 x1) (k0_pay4 i x2 x3) (k0_pay5 i x0 x1) (ix1 p)
      = Cert.Hmlc.rowG (fun k => x0 (ix2 p k)) (fun k => x2 (ix2 p k)) (fun c k => x1 (ix2 c k)) (fun c k => x3 (ix2 c k)) ((i 0).val * 128 + p.val) :=
  pay1_at _ _ _ p _ _ _ (fun c => pay2_at x0 x1 p c) (fun c => pay4_at i x2 x3 p c) (fun c => pay5_at i x0 x1 p c)

end Cert.Hmlc.Kern

end
-- ==== Proof.KValue.lean ====
/-
  The value of the idealized program: its result is the specification's loss of the two argument arrays.

  At the ideal instance the two conversions are the identity, so the pipeline's feature and label arrays are the
  arguments. At grid point t the pipeline's tile windows hold rows 128 t .. 128 t + 127 of them and the two whole
  windows hold all of them, so what point t writes back is the specification's row values at those rows
  (the body's payload read row by row); the 32 tiles cover the 4096 rows, so the result array ends holding every
  row's value, and the seven closing operations are the specification's tail.
-/
import proofs.«115237_j50706383896918_1_alg».proof.Proof.KRun
import proofs.«115237_j50706383896918_1_alg».proof.Proof.KernelRow
import Idealize.ShloMosaic.Lib.Pipeline.Value
import Idealize.ShloMosaic.Lib.StableHlo.Run

set_option maxRecDepth 16384

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl

/-! ## The converted arrays are the arguments -/

theorem V_v0 (c : Dev nD) : (V m c main_v0 : S4096x128.Idx → EReal) = m ((c : Thread nD τ).loc main_arg0) := by
  show StableHlo.after hostOps0 (fun b => m (c, b)) (Proc.devRef .tc main_v0) = _
  after_results; rfl
theorem V_v1 (c : Dev nD) : (V m c main_v1 : S4096x50.Idx → EReal) = m ((c : Thread nD τ).loc main_arg1) := by
  show StableHlo.after hostOps0 (fun b => m (c, b)) (Proc.devRef .tc main_v1) = _
  after_results; rfl

/-! ## The schedule: which rows each window holds at point t -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = t.val ∧ ((grid0.coords t) 0).val = t.val :=
  (by decide +kernel : ∀ t : Fin grid0.N, _)

/-- Row p of tile t is row 128 t + p of the array. -/
def rowIx (t : Fin cfg0.N) (p : Fin 128) : Fin 4096 := ⟨t.val * 128 + p.val, by have := t.isLt; have h : cfg0.N = 32 := N_0; omega⟩

/-- The feature array and the label array as the region finds them, by coordinates. -/
abbrev X (c : Dev nD) : Fin 4096 → Fin 128 → EReal := fun r k => V m c main_v0 (ix2 r k)
abbrev Lb (c : Dev nD) : Fin 4096 → Fin 50 → EReal := fun r k => V m c main_v1 (ix2 r k)

theorem blk0 (c : Dev nD) (t : Fin cfg0.N) (p : Fin 128) : (fun k : Fin 128 => iblk m c 0 t (ix2 p k)) = X m c (rowIx t p) := by
  funext k
  obtain ⟨e0, e1, -⟩ := idx_facts t
  show V m c main_v0 (((cfg0.win 0).blk t).view.emb (ix2 p k)) = V m c main_v0 (ix2 (rowIx t p) k)
  congr 1
  funext a; apply Fin.ext
  match a with
  | ⟨0, _⟩ => show win0_0.index t (0 : Fin 2) * 128 + 1 * p.val = t.val * 128 + p.val; omega
  | ⟨1, _⟩ => show win0_0.index t (1 : Fin 2) * 128 + 1 * k.val = k.val; omega

theorem blk1 (c : Dev nD) (t : Fin cfg0.N) : (fun (r : Fin 4096) (k : Fin 128) => iblk m c 1 t (ix2 r k)) = X m c := by
  funext r k
  obtain ⟨-, -, e0, e1, -⟩ := idx_facts t
  show V m c main_v0 (((cfg0.win 1).blk t).view.emb (ix2 r k)) = V m c main_v0 (ix2 r k)
  congr 1
  funext a; apply Fin.ext
  match a with
  | ⟨0, _⟩ => show win0_1.index t (0 : Fin 2) * 4096 + 1 * r.val = r.val; omega
  | ⟨1, _⟩ => show win0_1.index t (1 : Fin 2) * 128 + 1 * k.val = k.val; omega

theorem blk2 (c : Dev nD) (t : Fin cfg0.N) (p : Fin 128) : (fun k : Fin 50 => iblk m c 2 t (ix2 p k)) = Lb m c (rowIx t p) := by
  funext k
  obtain ⟨-, -, -, -, e0, e1, -⟩ := idx_facts t
  show V m c main_v1 (((cfg0.win 2).blk t).view.emb (ix2 p k)) = V m c main_v1 (ix2 (rowIx t p) k)
  congr 1
  funext a; apply Fin.ext
  match a with
  | ⟨0, _⟩ => show win0_2.index t (0 : Fin 2) * 128 + 1 * p.val = t.val * 128 + p.val; omega
  | ⟨1, _⟩ => show win0_2.index t (1 : Fin 2) * 50 + 1 * k.val = k.val; omega

theorem blk3 (c : Dev nD) (t : Fin cfg0.N) : (fun (r : Fin 4096) (k : Fin 50) => iblk m c 3 t (ix2 r k)) = Lb m c := by
  funext r k
  obtain ⟨-, -, -, -, -, -, e0, e1, -⟩ := idx_facts t
  show V m c main_v1 (((cfg0.win 3).blk t).view.emb (ix2 r k)) = V m c main_v1 (ix2 r k)
  congr 1
  funext a; apply Fin.ext
  match a with
  | ⟨0, _⟩ => show win0_3.index t (0 : Fin 2) * 4096 + 1 * r.val = r.val; omega
  | ⟨1, _⟩ => show win0_3.index t (1 : Fin 2) * 50 + 1 * k.val = k.val; omega

/-! ## What point t writes back -/

theorem flushed4_eq (c : Dev nD) (t : Fin cfg0.N) :
    (dats m 0 c).flushed 4 t = ((cfg0.win 4).blk t).view.read (Elt Ideal) (Cert.Hmlc.rows (X m c) (Lb m c)) := by
  show (cfg0.win 4).cut (grid0.coords t) ((dats m 0 c).after 4 t) = _
  rw [after4]
  unfold outBlk
  rw [View.canon_unit_zero hz1]
  unfold rowVals
  simp only [View.ld_unit_zero (S := S128x128) hz2, View.ld_unit_zero (S := S4096x128) hz2, View.ld_unit_zero (S := S128x50) hz2, View.ld_unit_zero (S := S4096x50) hz2]
  funext j
  obtain ⟨p, rfl⟩ : ∃ p : Fin 128, j = ix1 p := ⟨j 0, eq_ix1 j⟩
  obtain ⟨-, -, -, -, -, -, -, -, e4, eg⟩ := idx_facts t
  have he : ((cfg0.win 4).blk t).view.emb (ix1 p) = ix1 (rowIx t p) := by
    funext a; apply Fin.ext
    match a with
    | ⟨0, _⟩ => show win0_4.index t (0 : Fin 1) * 128 + 1 * p.val = t.val * 128 + p.val; omega
  show k0_pay1 (F := Ideal) (k0_pay2 (iblk m c 0 t) (iblk m c 1 t)) (k0_pay4 (grid0.coords t) (iblk m c 2 t) (iblk m c 3 t)) (k0_pay5 (grid0.coords t) (iblk m c 0 t) (iblk m c 1 t)) (ix1 p)
    = Cert.Hmlc.rows (X m c) (Lb m c) (((cfg0.win 4).blk t).view.emb (ix1 p))
  refine (Cert.Hmlc.Kern.pay_row (grid0.coords t) (iblk m c 0 t) (iblk m c 1 t) (iblk m c 2 t) (iblk m c 3 t) p).trans ?_
  rw [blk0, blk1, blk2, blk3, he, eg]
  rfl

/-! ## The tiles cover the array -/

theorem mem_blk4 (t : Fin cfg0.N) (i : S4096.Idx) :
    i ∈ ((cfg0.win 4).blk t).view.set ↔ ∀ a : Fin 1, win0_4.index t a * S128.size a ≤ (i a).val ∧ (i a).val < win0_4.index t a * S128.size a + S128.size a := by
  show i ∈ ((View.whole main_v2).slice (win0_4.rect t)).set ↔ _
  rw [View.set_slice_whole, Rect.mem_set_unit]
  exact Iff.rfl

theorem cover4 (i : S4096.Idx) : ∃ t : Fin cfg0.N, (cfg0.win 4).flush t = true ∧ i ∈ ((cfg0.win 4).blk t).view.set := by
  have hi : (i 0).val < 4096 := (i 0).isLt
  have hN : cfg0.N = 32 := N_0
  let t : Fin cfg0.N := ⟨(i 0).val / 128, by omega⟩
  obtain ⟨-, -, -, -, -, -, -, -, e4, -⟩ := idx_facts t
  refine ⟨t, flush0_4 t, ?_⟩
  rw [mem_blk4]
  intro a
  match a with
  | ⟨0, _⟩ =>
    show win0_4.index t (0 : Fin 1) * 128 ≤ (i 0).val ∧ (i 0).val < win0_4.index t (0 : Fin 1) * 128 + 128
    have ht : t.val = (i 0).val / 128 := rfl
    omega

/-- The result array after the run: every row's value. -/
theorem final4 (c : Dev nD) : (dats m 0 c).arrAt 4 cfg0.N = Cert.Hmlc.rows (X m c) (Lb m c) :=
  (dats m 0 c).arrAt_eq_of_cover 4 _ (fun t _ => flushed4_eq m c t) cover4

/-! ## The program's result -/

theorem result_eq (c : Dev nD) :
    V3 m c (Proc.devRef .tc main_v6) = Cert.Hmlc.loss (m ((c : Thread nD τ).loc main_arg0)) (m ((c : Thread nD τ).loc main_arg1)) := by
  have e : V3 m c (Proc.devRef .tc main_v6) = Cert.Hmlc.tail (V2 m c (Proc.devRef .tc main_v2)) := by
    show StableHlo.after hostOps1 (V2 m c) (Proc.devRef .tc main_v6) = _
    after_results; rfl
  rw [e, V2_v2, final4]
  unfold Cert.Hmlc.loss
  congr 1

end Cert.KernelIdeal.KV

end
-- ==== Proof.RefValue.lean ====
import proofs.«115237_j50706383896918_1_alg».proof.Proof.Gen.ReferenceIdeal.Run
import proofs.«115237_j50706383896918_1_alg».proof.Proof.Gen.ReferenceIdeal.Read
import proofs.«115237_j50706383896918_1_alg».proof.Proof.Spec

/-
  The reference's last stage, read at the ideal values, is the loss of the specification.

  Each stage of the reference is read at one element: the label overlap divided by the larger count, the scaled
  similarity, its row maximum, the diagonal mask, the exponentials' row sum, the log-probability, the
  binary mask, the row's quotient, and last the mean over the rows, negated and halved.
-/

noncomputable section

open scoped BigOperators

namespace Cert.Hmlc.Ref

open Cert.ReferenceIdeal Cert.ReferenceIdeal.Gen Cert.ReferenceIdeal.Read Idealize.ShloMosaic Idealize.ShloMosaic.ValueIdx

/-! ## The constants -/

/-- The word of the float one is the real one. -/
theorem ofBits_one : Ideal.ofBits .f32 0x3F800000#32 = 1 := by
  simp [Ideal.ofBits, Ideal.ieee]
  rw [← EReal.coe_mul, ← EReal.coe_one]; congr 1; norm_num

/-- The word of the float two is the real two. -/
theorem ofBits_two : Ideal.ofBits .f32 0x40000000#32 = ((2 : ℝ) : EReal) := by
  simp [Ideal.ofBits, Ideal.ieee]
  rw [← EReal.coe_mul]; congr 1; norm_num

/-- The temperature's word is the binary fraction 9395241 / 2^27. -/
theorem ofBits_temp : Ideal.ofBits .f32 0x3D8F5C29#32 = ((9395241 / 134217728 : ℝ) : EReal) := by
  simp [Ideal.ofBits, Ideal.ieee]
  rw [← EReal.coe_mul]; congr 1; norm_num

/-- Two to the power one is two. -/
theorem pow_two_one :
    Ideal.pow (Ideal.ofBits .f32 0x40000000#32) (Ideal.ofBits .f32 0x3F800000#32) = Ideal.ofBits .f32 0x40000000#32 := by
  rw [ofBits_two, ofBits_one, ← EReal.coe_one]
  show ((Real.rpow 2 1 : ℝ) : EReal) = _
  congr 1; simp

/-- The 32-bit comparison of two coordinates below 4096 is the equality of the naturals. -/
theorem cmp_coord (r c : Fin 4096) :
    IntOp.cmpi .eq (IntOp.addi (BitVec.ofNat 32 r.val) 0#32) (BitVec.ofNat 32 c.val) = if r.val = c.val then 1#1 else 0#1 := by
  show BitVec.ofBool (BitVec.ofNat 32 r.val + 0#32 == BitVec.ofNat 32 c.val) = _
  rw [BitVec.add_zero]
  by_cases h : r.val = c.val
  · rw [if_pos h, h, beq_self_eq_true]; rfl
  · have hne : BitVec.ofNat 32 r.val ≠ BitVec.ofNat 32 c.val := by
      intro e
      have := congrArg BitVec.toNat e
      simp only [BitVec.toNat_ofNat] at this
      have hr := r.isLt; have hc := c.isLt
      omega
    rw [if_neg h, beq_eq_false_iff_ne.mpr hne]; rfl

/-! ## The stages' index maps at coordinates -/

section Idx
variable (r c : Fin 4096)

theorem lidx_v1 (k : Fin 50) : lidx_main_v1 (ix2 r c) k = ix2 r k :=
  funext fun a => Fin.ext (by match a with | ⟨0, _⟩ => rfl | ⟨1, _⟩ => rfl)
theorem ridx_v1 (k : Fin 50) : idx_main_v0 (ridx_main_v1 (ix2 r c) k) = ix2 c k :=
  funext fun a => Fin.ext (by match a with | ⟨0, _⟩ => rfl | ⟨1, _⟩ => rfl)
theorem idx_v2 (k : Fin 50) : idx_main_v2 (ix1 r) k = ix2 r k :=
  funext fun a => Fin.ext (by match a with | ⟨0, _⟩ => rfl | ⟨1, _⟩ => rfl)
theorem idx_v5 : idx_main_v3 (idx_main_v5 (ix2 r c)) = ix1 r :=
  funext fun a => Fin.ext (by match a with | ⟨0, _⟩ => rfl)
theorem idx_v6 : idx_main_v4 (idx_main_v6 (ix2 r c)) = ix1 c :=
  funext fun a => Fin.ext (by match a with | ⟨0, _⟩ => rfl)
theorem lidx_v10 (k : Fin 128) : lidx_main_v10 (ix2 r c) k = ix2 r k :=
  funext fun a => Fin.ext (by match a with | ⟨0, _⟩ => rfl | ⟨1, _⟩ => rfl)
theorem ridx_v10 (k : Fin 128) : idx_main_v9 (ridx_main_v10 (ix2 r c) k) = ix2 c k :=
  funext fun a => Fin.ext (by match a with | ⟨0, _⟩ => rfl | ⟨1, _⟩ => rfl)
theorem idx_v15 : idx_main_v14 (idx_main_v15 (ix2 r c)) = ix1 r :=
  funext fun a => Fin.ext (by match a with | ⟨0, _⟩ => rfl)
theorem idx_v28 (k : Fin 4096) : idx_main_v28 (ix1 r) k = ix2 r k :=
  funext fun a => Fin.ext (by match a with | ⟨0, _⟩ => rfl | ⟨1, _⟩ => rfl)
theorem idx_v33 : idx_main_v29 (idx_main_v33 (ix2 r c)) = ix1 r :=
  funext fun a => Fin.ext (by match a with | ⟨0, _⟩ => rfl)
theorem idx_v39 (k : Fin 4096) : idx_main_v39 (ix1 r) k = ix2 r k :=
  funext fun a => Fin.ext (by match a with | ⟨0, _⟩ => rfl | ⟨1, _⟩ => rfl)
theorem idx_v40 (k : Fin 4096) : idx_main_v40 (ix1 r) k = ix2 r k :=
  funext fun a => Fin.ext (by match a with | ⟨0, _⟩ => rfl | ⟨1, _⟩ => rfl)

/-- The square array reduces along its second axis to the rows. -/
theorem reduces_row : S4096x4096.Reduces [1] S4096 := by decide

/-- The index over row `r` with column `k` inserted. -/
theorem lift_row (k : Fin 4096) : reduces_row.lift (ix1 r) k = ix2 r k :=
  funext fun a => Fin.ext (by match a with | ⟨0, _⟩ => rfl | ⟨1, _⟩ => rfl)

end Idx

/-! ## The stages at an element -/

section Stages
variable (x0 : (⟨S4096x128, .f32⟩ : BufTy).Contents (Elt Ideal)) (x1 : (⟨S4096x50, .f32⟩ : BufTy).Contents (Elt Ideal))

/-- A label row's count. -/
theorem count_at (r : Fin 4096) : val_main_v2 (F := Ideal) x1 (ix1 r) = cnt (fun k => x1 (ix2 r k)) := by
  rw [val_main_v2_apply, val_main_cst_apply]
  simp only [Ideal.ofBits_def, Ideal.ofBits_zero_f32, zero_add, idx_v2, cnt]

/-- The label overlap of rows `r` and `c` over the larger of their counts. -/
theorem overlap_at (r c : Fin 4096) :
    val_main_v8 (F := Ideal) x1 (ix2 r c)
      = Ideal.div (∑ k : Fin 50, x1 (ix2 r k) * x1 (ix2 c k))
          (max (cnt (fun k => x1 (ix2 r k))) (cnt (fun k => x1 (ix2 c k)))) := by
  rw [val_main_v8_apply, val_main_v1_apply, val_main_v7_apply, val_main_v5_apply, val_main_v3_apply, val_main_v6_apply,
    val_main_v4_apply, idx_v5, idx_v6, count_at, count_at]
  simp only [val_main_v0_apply, lidx_v1, ridx_v1, Ideal.hostDivf_def, Ideal.maximumf_def]

/-- The diagonal mask: zero on the diagonal, one off it. -/
theorem diag_at (r c : Fin 4096) : val_main_v24 (F := Ideal) (ix2 r c) = dm r.val c := by
  rw [val_main_v24_apply, val_main_v23_apply, val_main_cst_2_apply, val_main_v22_apply, val_main_v21_apply, val_main_v20_apply,
    val_main_v17_apply, val_main_v19_apply, val_main_c_apply, val_main_v18_apply]
  show Cert.Hmlc.one - (((IntOp.cmpi .eq (IntOp.addi (BitVec.ofNat 32 r.val) 0#32) (BitVec.ofNat 32 c.val)).toNat : ℝ) : EReal) = dm r.val c
  rw [cmp_coord]
  unfold dm
  by_cases h : r.val = c.val
  · rw [if_pos h, if_pos h]
    show Cert.Hmlc.one - (((1 : ℕ) : ℝ) : EReal) = 0
    rw [show Cert.Hmlc.one = ((1 : ℝ) : EReal) from ofBits_one, Nat.cast_one, ← EReal.coe_sub, sub_self, EReal.coe_zero]
  · rw [if_neg h, if_neg h]
    show Cert.Hmlc.one - (((0 : ℕ) : ℝ) : EReal) = Cert.Hmlc.one
    rw [Nat.cast_zero, EReal.coe_zero, sub_zero]

/-- The normalised label overlap with the diagonal removed. -/
theorem mask_at (r c : Fin 4096) :
    val_main_v25 (F := Ideal) x1 (ix2 r c) = mn (fun k => x1 (ix2 r k)) (fun c k => x1 (ix2 c k)) r.val c := by
  rw [val_main_v25_apply, overlap_at, diag_at]
  rfl

/-- The scaled similarity of rows `r` and `c`: the quotient by the temperature is the product with its reciprocal. -/
theorem sim_at (r c : Fin 4096) :
    val_main_v12 (F := Ideal) x0 (ix2 r c) = sc (fun k => x0 (ix2 r k)) (fun c k => x0 (ix2 c k)) c := by
  rw [val_main_v12_apply, val_main_v10_apply, val_main_v11_apply, val_main_cst_0_apply]
  simp only [val_main_v9_apply, lidx_v10, ridx_v10, Ideal.hostDivf_def, Ideal.ofBits_def, ofBits_temp]
  rw [Ideal.div_coe (by norm_num)]
  unfold sc invT
  rw [show (1 / (9395241 / 134217728) : ℝ) = 134217728 / 9395241 by norm_num]

/-- The row's largest scaled similarity: the host's reduction by the maximum is the fold of `max` over the row. -/
theorem rmax_at (r : Fin 4096) :
    val_main_v13 (F := Ideal) x0 (ix1 r) = rmax (fun k => x0 (ix2 r k)) (fun c k => x0 (ix2 c k)) := by
  unfold val_main_v13
  refine (Host.reduce_eq_fold_single FloatOps.maximumf _ _ reducesTo_S4096x4096_S4096_d1 reduces_row h_S_ (ix1 r)).trans ?_
  have hf : (val_main_v12 (F := Ideal) x0 ∘ reduces_row.lift (ix1 r))
      = sc (fun k => x0 (ix2 r k)) (fun c k => x0 (ix2 c k)) :=
    funext fun c => (congrArg (val_main_v12 (F := Ideal) x0) (lift_row r c)).trans (sim_at x0 r c)
  rw [hf]
  rfl

/-- The shifted similarity. -/
theorem shifted_at (r c : Fin 4096) :
    val_main_v16 (F := Ideal) x0 (ix2 r c) = lg (fun k => x0 (ix2 r k)) (fun c k => x0 (ix2 c k)) c := by
  rw [val_main_v16_apply, val_main_v15_apply, val_main_v14_apply, idx_v15, rmax_at, sim_at]
  rfl

/-- The exponential of the shifted similarity with the diagonal removed. -/
theorem exp_at (r c : Fin 4096) :
    val_main_v27 (F := Ideal) x0 (ix2 r c) = ex (fun k => x0 (ix2 r k)) (fun c k => x0 (ix2 c k)) r.val c := by
  rw [val_main_v27_apply, val_main_v26_apply, shifted_at, diag_at]
  rfl

/-- The logarithm of the row's sum of exponentials, at every column. -/
theorem lse_at (r c : Fin 4096) :
    val_main_v33 (F := Ideal) x0 (ix2 r c) = lse (fun k => x0 (ix2 r k)) (fun c k => x0 (ix2 c k)) r.val := by
  rw [val_main_v33_apply, val_main_v32_apply, val_main_v31_apply, val_main_v29_apply, val_main_v30_apply, val_main_cst_4_apply,
    idx_v33, val_main_v28_apply, val_main_cst_3_apply]
  simp only [idx_v28, exp_at, Ideal.ofBits_def, Ideal.ofBits_zero_f32, zero_add, Ideal.hostUnary_log_def, Ideal.addf_def]
  rfl

/-- The log-probability. -/
theorem logprob_at (r c : Fin 4096) :
    val_main_v34 (F := Ideal) x0 (ix2 r c) = lp (fun k => x0 (ix2 r k)) (fun c k => x0 (ix2 c k)) r.val c := by
  rw [val_main_v34_apply, shifted_at, lse_at]
  rfl

/-- The overlap made binary where it is positive. -/
theorem binary_at (r c : Fin 4096) :
    val_main_v37 (F := Ideal) x1 (ix2 r c) = mb (fun k => x1 (ix2 r k)) (fun c k => x1 (ix2 c k)) r.val c := by
  rw [val_main_v37_apply, val_main_v36_apply, val_main_v35_apply, val_main_cst_5_apply, val_main_call0_v1_apply,
    val_main_call0_v0_apply, val_main_cst_6_apply, mask_at]
  unfold mb
  generalize mn (fun k => x1 (ix2 r k)) (fun c k => x1 (ix2 c k)) r.val c = m
  show Scalar.select (Ideal.cmp .ogt m (Ideal.ofBits .f32 0x00000000#32)) Cert.Hmlc.one m = if 0 < m then Cert.Hmlc.one else m
  rw [Ideal.ofBits_zero_f32]
  unfold Ideal.cmp Scalar.select
  by_cases h : 0 < m
  · simp [h]
  · simp [h]

/-- The row's value. -/
theorem row_at (r : Fin 4096) :
    val_main_v43 (F := Ideal) x0 x1 (ix1 r)
      = rowG (fun k => x0 (ix2 r k)) (fun k => x1 (ix2 r k)) (fun c k => x0 (ix2 c k)) (fun c k => x1 (ix2 c k)) r.val := by
  rw [val_main_v43_apply, val_main_v39_apply, val_main_cst_7_apply, val_main_v42_apply, val_main_v40_apply, val_main_cst_8_apply,
    val_main_v41_apply, val_main_cst_9_apply]
  simp only [idx_v39, idx_v40, val_main_v38_apply, mask_at, logprob_at, binary_at, Ideal.ofBits_def, Ideal.ofBits_zero_f32, zero_add,
    Ideal.hostDivf_def, Ideal.addf_def, Ideal.mulf_def]
  rfl

/-- Every row's value: the stage before the mean is the specification's rows. -/
theorem rows_eq : val_main_v43 (F := Ideal) x0 x1 = rows (fun r k => x0 (ix2 r k)) (fun r k => x1 (ix2 r k)) := by
  funext j
  obtain ⟨r, rfl⟩ : ∃ r : Fin 4096, j = ix1 r := ⟨j 0, eq_ix1 j⟩
  rw [row_at]
  rfl

/-- The closing operations on any array of row values: the reference divides by two to the power one, which is two. -/
theorem tail_eq (v : FVec Ideal SB .f32) (i : S_.Idx) :
    FloatOps.hostDivf
      (FloatOps.hostNegf (FloatOps.hostDivf
        (Host.reduceAdd (F := Ideal) v (val_main_cst_10 (F := Ideal)) reducesTo_S4096_S_d0 h_S_ i)
        (FloatOps.ofBits (F := Ideal) .f32 0x45800000#32)))
      (FloatOps.hostPowf (FloatOps.ofBits (F := Ideal) .f32 0x40000000#32) (FloatOps.ofBits (F := Ideal) .f32 0x3F800000#32))
    = tail v i := by
  simp only [Ideal.hostPowf_def, Ideal.ofBits_def, pow_two_one]
  rfl

end Stages

/-- The reference's last stage at the ideal values is the loss of the two argument arrays. -/
theorem ref_eq_loss (x0 : (⟨Cert.ReferenceIdeal.S4096x128, .f32⟩ : BufTy).Contents (Elt Ideal))
    (x1 : (⟨Cert.ReferenceIdeal.S4096x50, .f32⟩ : BufTy).Contents (Elt Ideal)) :
    Cert.ReferenceIdeal.Read.val_main_v48 (F := Ideal) x0 x1 = Cert.Hmlc.loss x0 x1 := by
  funext i
  rw [val_main_v48_apply, val_main_v46_apply, val_main_v45_apply, val_main_v47_apply, val_main_cst_12_apply, val_main_cst_13_apply,
    val_main_cst_11_apply]
  unfold val_main_v44 loss
  rw [rows_eq]
  exact tail_eq _ i

end Cert.Hmlc.Ref

end
-- ==== Proof.lean ====
/-
  The five claims of this certificate.

  Both printed kernel programs (the word-level one and its idealization, which differ in one named constant)
  convert the two argument arrays, run one pipeline of 32 tiles of 128 rows, and close with seven host
  operations; the pipeline hands the converted feature array to two of its windows and the converted label
  array to two others, each pair sharing its array by halves. Their frames are the run of that program read at the
  arguments (Proof/KRun.lean for the idealized program, Proof/BRun.lean the same text for the word-level one). The
  reference's frame is its run with the result dropped.

  The idealization names the kernel's scale constant: the word 0x41649249 is read as 134217728/9395241, the exact
  reciprocal of the temperature word 9395241/2^27 by which the reference divides. So at the ideal instance the
  kernel's product with the constant is the reference's quotient on every extended real, and both programs compute
  one function of the arguments, the specification's loss (Proof/Spec.lean): the kernel's result by reading the
  pipeline's tiles row by row (Proof/KernelRow.lean, Proof/KValue.lean), the reference's by reading its stages
  (Proof/RefValue.lean). No step needs the inputs to be finite.
-/
import proofs.«115237_j50706383896918_1_alg».proof.Defs
import proofs.«115237_j50706383896918_1_alg».proof.Proof.Gen.Kernel
import proofs.«115237_j50706383896918_1_alg».proof.Proof.Gen.KernelIdeal
import proofs.«115237_j50706383896918_1_alg».proof.Proof.Gen.ReferenceIdeal
import proofs.«115237_j50706383896918_1_alg».proof.Proof.Gen.Pre_finite_inputs
import proofs.«115237_j50706383896918_1_alg».proof.Proof.Gen.ReferenceIdeal.Run
import proofs.«115237_j50706383896918_1_alg».proof.Proof.Gen.ReferenceIdeal.Read
import proofs.«115237_j50706383896918_1_alg».proof.Proof.BRun
import proofs.«115237_j50706383896918_1_alg».proof.Proof.KRun
import proofs.«115237_j50706383896918_1_alg».proof.Proof.KValue
import proofs.«115237_j50706383896918_1_alg».proof.Proof.RefValue

noncomputable section

namespace Cert.Proof

open Idealize.ShloMosaic Idealize.ShloMosaic.TcCoe Idealize.SL.Sem

/-- The word-level program runs to the end and leaves both arguments as launched. -/
theorem frame_k : Cert.frame_Kernel := fun m ρ _ => Cert.Kernel.Fr.frame (F := Bits) m ρ

/-- So does the idealized program. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale constant's word denotes, by the certificate's table, the exact
    reciprocal of the temperature. -/
theorem preserves : Cert.preserves_Kernel_KernelIdeal :=
  IdealRules.named_const.statement Cert.KernelIdeal.κ "inv_t" .f32 0x41649249#32 ((134217728 / 9395241 : ℝ) : EReal) rfl

/-- At the ideal instance both programs end with the specification's loss of the (agreeing) arguments. -/
theorem algebraic : Cert.algebraic_KernelIdeal_ReferenceIdeal := by
  intro m ρ m' ρ' _ hagree
  refine ⟨fun c => Cert.Hmlc.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KV.result_eq m c), (h c).2⟩)
      (Cert.KernelIdeal.Fr.run_vals (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, Cert.Hmlc.Ref.ref_eq_loss, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
